-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x28x28 : Shape := ⟨4, ![64, 512, 28, 28]⟩
abbrev S64x512x1 : Shape := ⟨3, ![64, 512, 1]⟩
abbrev S_ : Shape := ⟨0, ![]⟩

class Facts : Prop where
  bcast_S_S64x512x28x28 : S_.BroadcastsInDim S64x512x28x28 (![] : Fin 0 → Fin S64x512x28x28.rank)
  reducesTo_S64x512x28x28_S_d0_1_2_3 : S64x512x28x28.ReducesTo [0, 1, 2, 3] S_
  h_S_ : 0 < S_.numel
  bcast_S_S64x512x1 : S_.BroadcastsInDim S64x512x1 (![] : Fin 0 → Fin S64x512x1.rank)
  reducesTo_S64x512x1_S_d0_1_2 : S64x512x1.ReducesTo [0, 1, 2] S_

variable [Facts]

def fn {F : FTy → Type} [FloatOps F] (main_arg0 : FVec F S64x512x28x28 .f32) (main_arg1 : FVec F S64x512x1 .f32) : IVec S_ 1 :=
  let main_v0 : FVec F S64x512x28x28 .f32 := Host.absf main_arg0
  let main_cst : FVec F S_ .f32 := constant S_ .f32 0x7F800000#32
  let main_v1 : FVec F S64x512x28x28 .f32 := broadcastInDim S64x512x28x28 ![] bcast_S_S64x512x28x28 main_cst
  let main_v2 : IVec S64x512x28x28 1 := cmpf .olt main_v0 main_v1
  let main_c : IVec S_ 1 := constantI S_ 1 1#1
  let main_v3 : IVec S_ 1 := (fun x v => Host.reduce IntOp.andi x v reducesTo_S64x512x28x28_S_d0_1_2_3 h_S_) main_v2 main_c
  let main_v4 : FVec F S64x512x1 .f32 := Host.absf main_arg1
  let main_cst_0 : FVec F S_ .f32 := constant S_ .f32 0x7F800000#32
  let main_v5 : FVec F S64x512x1 .f32 := broadcastInDim S64x512x1 ![] bcast_S_S64x512x1 main_cst_0
  let main_v6 : IVec S64x512x1 1 := cmpf .olt main_v4 main_v5
  let main_c_1 : IVec S_ 1 := constantI S_ 1 1#1
  let main_v7 : IVec S_ 1 := (fun x v => Host.reduce IntOp.andi x v reducesTo_S64x512x1_S_d0_1_2 h_S_) main_v6 main_c_1
  let main_v8 : IVec S_ 1 := andi main_v3 main_v7
  main_v8
-- ==== Kernel.lean ====
abbrev S64x512x28x28 : Shape := ⟨4, ![64, 512, 28, 28]⟩
abbrev S64x512x1 : Shape := ⟨3, ![64, 512, 1]⟩
abbrev S64x512x784 : Shape := ⟨3, ![64, 512, 784]⟩
abbrev S64x512 : Shape := ⟨2, ![64, 512]⟩
abbrev S64x1 : Shape := ⟨2, ![64, 1]⟩
abbrev S8x512x784 : Shape := ⟨3, ![8, 512, 784]⟩
abbrev S8x512 : Shape := ⟨2, ![8, 512]⟩
abbrev S8x1 : Shape := ⟨2, ![8, 1]⟩
abbrev S8x512x512 : Shape := ⟨3, ![8, 512, 512]⟩
abbrev S8 : Shape := ⟨1, ![8]⟩
abbrev S8x1x512 : Shape := ⟨3, ![8, 1, 512]⟩
abbrev S64 : Shape := ⟨1, ![64]⟩
abbrev S_ : Shape := ⟨0, ![]⟩

abbrev nBuf : Space → Nat
  | .hbm => 10
  | .vmem => 6
  | .smem => 0
  | _ => 0

abbrev bufTy : (tb : Table) → Fin (tcTables nBuf tb) → BufTy
  | .hbm, ⟨0, _⟩ => ⟨S64x512x28x28, .f32⟩
  | .hbm, ⟨1, _⟩ => ⟨S64x512x1, .f32⟩
  | .hbm, ⟨2, _⟩ => ⟨S64x512x784, .f32⟩
  | .hbm, ⟨3, _⟩ => ⟨S64x512, .f32⟩
  | .hbm, ⟨4, _⟩ => ⟨S64x1, .f32⟩
  | .hbm, ⟨5, _⟩ => ⟨S64, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S8x512x784, .f32⟩
  | .local _ .vmem, ⟨1, _⟩ => ⟨S8x512x784, .f32⟩
  | .local _ .vmem, ⟨2, _⟩ => ⟨S8x512, .f32⟩
  | .local _ .vmem, ⟨3, _⟩ => ⟨S8x512, .f32⟩
  | .local _ .vmem, ⟨4, _⟩ => ⟨S8x1, .f32⟩
  | .local _ .vmem, ⟨5, _⟩ => ⟨S8x1, .f32⟩
  | _, _ => ⟨S64x512x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S64x512x28x28_S64x512x784 : S64x512x28x28.ShapeCasts S64x512x784
  shapeCasts_S64x512x1_S64x512 : S64x512x1.ShapeCasts S64x512
  inb_S8x512x784_S8x512x784_0_0_0 : ∀ a, (![0, 0, 0] : Fin 3 → Nat) a + S8x512x784.size a ≤ S8x512x784.size a
  h_S8x512x784 : 0 < S8x512x784.numel
  shapeCasts_S8x512x784_S8x512x784 : S8x512x784.ShapeCasts S8x512x784
  inb_S8x512_S8x512_0_0 : ∀ a, (![0, 0] : Fin 2 → Nat) a + S8x512.size a ≤ S8x512.size a
  h_S8x512 : 0 < S8x512.numel
  shapeCasts_S8x512_S8x512 : S8x512.ShapeCasts S8x512
  reduces_S8x512_S8 : S8x512.Reduces [1] S8
  shapeCasts_S8_S8x1 : S8.ShapeCasts S8x1
  broadcasts_S8x1_S8x512 : S8x1.Broadcasts S8x512
  shapeCasts_S8x512_S8x1x512 : S8x512.ShapeCasts S8x1x512
  broadcasts_S8x1x512_S8x512x512 : S8x1x512.Broadcasts S8x512x512
  reduces_S8x512x512_S8x512 : S8x512x512.Reduces [2] S8x512
  inb_S8x1_S8x1_0_0 : ∀ a, (![0, 0] : Fin 2 → Nat) a + S8x1.size a ≤ S8x1.size a
  h_S8x1 : 0 < S8x1.numel
  shapeCasts_S64x1_S64 : S64x1.ShapeCasts S64
  reducesTo_S64_S_d0 : S64.ReducesTo [0] S_
  h_S_ : 0 < S_.numel
  dot_S8x512x784_S8x512x784_S8x512x512_2_2_1_1_0_0_wf : DotDims.WF S8x512x784 S8x512x784 S8x512x512 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512x784.size a ≤ S64x512x784.size a
  hwx0_0 : ∀ i : grid0.Coords, EltTy.bits .f32 = 32 ∨ (Rect.block (s := S64x512x784) S8x512x784.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x512.size a ≤ S64x512.size a
  hwx0_1 : ∀ i : grid0.Coords, EltTy.bits .f32 = 32 ∨ (Rect.block (s := S64x512) S8x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1.size a ≤ S64x1.size a
  hwx0_2 : ∀ i : grid0.Coords, EltTy.bits .f32 = 32 ∨ (Rect.block (s := S64x1) S8x1.size (cc0_transform_2 i) (hinb0_2 i)).WholeWords (EltTy.packing .f32)

variable [Facts₀]

def dot_S8x512x784_S8x512x784_S8x512x512_2_2_1_1_0_0 : DotDims S8x512x784 S8x512x784 S8x512x512 where
  lhsContracting := [2]
  rhsContracting := [2]
  lhsNonContracting := [1]
  rhsNonContracting := [1]
  lhsBatch := [0]
  rhsBatch := [0]
  wf := dot_S8x512x784_S8x512x784_S8x512x512_2_2_1_1_0_0_wf

abbrev win0_0 : Pipeline.Window sig grid0 :=
  Pipeline.Window.ofSpec (Memref.whole main_v0) S8x512x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x512x28x28 : Shape := ⟨4, ![64, 512, 28, 28]⟩
abbrev S64x512x1 : Shape := ⟨3, ![64, 512, 1]⟩
abbrev S64x512x784 : Shape := ⟨3, ![64, 512, 784]⟩
abbrev S64x512x512 : Shape := ⟨3, ![64, 512, 512]⟩
abbrev S_ : Shape := ⟨0, ![]⟩
abbrev S64x1 : Shape := ⟨2, ![64, 1]⟩
abbrev S64x1x1 : Shape := ⟨3, ![64, 1, 1]⟩
abbrev S64 : Shape := ⟨1, ![64]⟩
abbrev S512x512 : Shape := ⟨2, ![512, 512]⟩
abbrev S1x512x512 : Shape := ⟨3, ![1, 512, 512]⟩

abbrev nBuf : Space → Nat
  | .hbm => 111
  | .vmem => 0
  | .smem => 0
  | _ => 0

abbrev bufTy : (tb : Table) → Fin (tcTables nBuf tb) → BufTy
  | .hbm, ⟨0, _⟩ => ⟨S64x512x28x28, .f32⟩
  | .hbm, ⟨1, _⟩ => ⟨S64x512x1, .f32⟩
  | .hbm, ⟨2, _⟩ => ⟨S64x512x784, .f32⟩
  | .hbm, ⟨3, _⟩ => ⟨S64x512x512, .f32⟩
  | .hbm, ⟨4, _⟩ => ⟨S64x512x1, .f32⟩
  | .hbm, ⟨5, _⟩ => ⟨S_, .f32⟩
  | .hbm, ⟨6, _⟩ => ⟨S64x1, .f32⟩
  | .hbm, ⟨7, _⟩ => ⟨S64x1x1, .f32⟩
  | .hbm, ⟨8, _⟩ => ⟨S64x1x1, .f32⟩
  | .hbm, ⟨9, _⟩ => ⟨S_, .f32⟩
  | .hbm, ⟨10, _⟩ => ⟨S64x1x1, .f32⟩
  | .hbm, ⟨11, _⟩ => ⟨S64x1x1, .f32⟩
  | .hbm, ⟨12, _⟩ => ⟨S64x512x1, .f32⟩
  | .hbm, ⟨13, _⟩ => ⟨S64x512x1, .f32⟩
  | .hbm, ⟨14, _⟩ => ⟨S64x512x1, .f32⟩
  | .hbm, ⟨15, _⟩ => ⟨S64x512x1, .f32⟩
  | .hbm, ⟨16, _⟩ => ⟨S_, .f32⟩
  | .hbm, ⟨17, _⟩ => ⟨S64x1, .f32⟩
  | .hbm, ⟨18, _⟩ => ⟨S64x1x1, .f32⟩
  | .hbm, ⟨19, _⟩ => ⟨S64x1x1, .f32⟩
  | .hbm, ⟨20, _⟩ => ⟨S_, .f32⟩
  | .hbm, ⟨21, _⟩ => ⟨S64x1x1, .f32⟩
  | .hbm, ⟨22, _⟩ => ⟨S64x1x1, .f32⟩
  | .hbm, ⟨23, _⟩ => ⟨S64x512x1, .f32⟩
  | .hbm, ⟨24, _⟩ => ⟨S64x512x1, .f32⟩
  | .hbm, ⟨25, _⟩ => ⟨S64x512x1, .f32⟩
  | .hbm, ⟨26, _⟩ => ⟨S64x512x1, .f32⟩
  | .hbm, ⟨27, _⟩ => ⟨S_, .f32⟩
  | .hbm, ⟨28, _⟩ => ⟨S64x1, .f32⟩
  | .hbm, ⟨29, _⟩ => ⟨S64x1x1, .f32⟩
  | .hbm, ⟨30, _⟩ => ⟨S64x1x1, .f32⟩
  | .hbm, ⟨31, _⟩ => ⟨S_, .f32⟩
  | .hbm, ⟨32, _⟩ => ⟨S64x1x1, .f32⟩
  | .hbm, ⟨33, _⟩ => ⟨S64x1x1, .f32⟩
  | .hbm, ⟨34, _⟩ => ⟨S64x512x1, .f32⟩
  | .hbm, ⟨35, _⟩ => ⟨S64x512x1, .f32⟩
  | .hbm, ⟨36, _⟩ => ⟨S64x512x1, .f32⟩
  | .hbm, ⟨37, _⟩ => ⟨S64x512x1, .f32⟩
  | .hbm, ⟨38, _⟩ => ⟨S_, .f32⟩
  | .hbm, ⟨39, _⟩ => ⟨S64x1, .f32⟩
  | .hbm, ⟨40, _⟩ => ⟨S64x1x1, .f32⟩
  | .hbm, ⟨41, _⟩ => ⟨S64x1x1, .f32⟩
  | .hbm, ⟨42, _⟩ => ⟨S_, .f32⟩
  | .hbm, ⟨43, _⟩ => ⟨S64x1x1, .f32⟩
  | .hbm, ⟨44, _⟩ => ⟨S64x1x1, .f32⟩
  | .hbm, ⟨45, _⟩ => ⟨S64x512x1, .f32⟩
  | .hbm, ⟨46, _⟩ => ⟨S64x512x1, .f32⟩
  | .hbm, ⟨47, _⟩ => ⟨S64x512x1, .f32⟩
  | .hbm, ⟨48, _⟩ => ⟨S64x512x1, .f32⟩
  | .hbm, ⟨49, _⟩ => ⟨S_, .f32⟩
  | .hbm, ⟨50, _⟩ => ⟨S64x1, .f32⟩
  | .hbm, ⟨51, _⟩ => ⟨S64x1x1, .f32⟩
  | .hbm, ⟨52, _⟩ => ⟨S64x1x1, .f32⟩
  | .hbm, ⟨53, _⟩ => ⟨S_, .f32⟩
  | .hbm, ⟨54, _⟩ => ⟨S64x1x1, .f32⟩
  | .hbm, ⟨55, _⟩ => ⟨S64x1x1, .f32⟩
  | .hbm, ⟨56, _⟩ => ⟨S64x512x1, .f32⟩
  | .hbm, ⟨57, _⟩ => ⟨S64x512x1, .f32⟩
  | .hbm, ⟨58, _⟩ => ⟨S64x512x1, .f32⟩
  | .hbm, ⟨59, _⟩ => ⟨S64x512x1, .f32⟩
  | .hbm, ⟨60, _⟩ => ⟨S_, .f32⟩
  | .hbm, ⟨61, _⟩ => ⟨S64, .f32⟩
  | .hbm, ⟨62, _⟩ => ⟨S64x512x1, .f32⟩
  | .hbm, ⟨63, _⟩ => ⟨S_, .f32⟩
  | .hbm, ⟨64, _⟩ => ⟨S64, .f32⟩
  | .hbm, ⟨65, _⟩ => ⟨S64, .f32⟩
  | .hbm, ⟨66, _⟩ => ⟨S512x512, .i32⟩
  | .hbm, ⟨67, _⟩ => ⟨S512x512, .i32⟩
  | .hbm, ⟨68, _⟩ => ⟨S_, .i32⟩
  | .hbm, ⟨69, _⟩ => ⟨S512x512, .i32⟩
  | .hbm, ⟨70, _⟩ => ⟨S512x512, .i32⟩
  | .hbm, ⟨71, _⟩ => ⟨S512x512, .i1⟩
  | .hbm, ⟨72, _⟩ => ⟨S512x512, .f32⟩
  | .hbm, ⟨73, _⟩ => ⟨S1x512x512, .f32⟩
  | .hbm, ⟨74, _⟩ => ⟨S64x1x1, .f32⟩
  | .hbm, ⟨75, _⟩ => ⟨S64x512x512, .f32⟩
  | .hbm, ⟨76, _⟩ => ⟨S64x512x512, .f32⟩
  | .hbm, ⟨77, _⟩ => ⟨S64x512x512, .f32⟩
  | .hbm, ⟨78, _⟩ => ⟨S64x512x512, .f32⟩
  | .hbm, ⟨79, _⟩ => ⟨S64x512x1, .f32⟩
  | .hbm, ⟨80, _⟩ => ⟨S64x512x1, .f32⟩
  | .hbm, ⟨81, _⟩ => ⟨S_, .f32⟩
  | .hbm, ⟨82, _⟩ => ⟨S64x1, .f32⟩
  | .hbm, ⟨83, _⟩ => ⟨S64x1x1, .f32⟩
  | .hbm, ⟨84, _⟩ => ⟨S64x1x1, .f32⟩
  | .hbm, ⟨85, _⟩ => ⟨S_, .f32⟩
  | .hbm, ⟨86, _⟩ => ⟨S64x1x1, .f32⟩
  | .hbm, ⟨87, _⟩ => ⟨S64x1x1, .f32⟩
  | .hbm, ⟨88, _⟩ => ⟨S64x512x1, .f32⟩
  | .hbm, ⟨89, _⟩ => ⟨S64x512x1, .f32⟩
  | .hbm, ⟨90, _⟩ => ⟨S64x512x1, .f32⟩
  | .hbm, ⟨91, _⟩ => ⟨S64x512x1, .f32⟩
  | .hbm, ⟨92, _⟩ => ⟨S_, .f32⟩
  | .hbm, ⟨93, _⟩ => ⟨S64, .f32⟩
  | .hbm, ⟨94, _⟩ => ⟨S64x512x1, .f32⟩
  | .hbm, ⟨95, _⟩ => ⟨S_, .f32⟩
  | .hbm, ⟨96, _⟩ => ⟨S64, .f32⟩
  | .hbm, ⟨97, _⟩ => ⟨S64, .f32⟩
  | .hbm, ⟨98, _⟩ => ⟨S64, .f32⟩
  | .hbm, ⟨99, _⟩ => ⟨S64, .f32⟩
  | .hbm, ⟨100, _⟩ => ⟨S_, .f32⟩
  | .hbm, ⟨101, _⟩ => ⟨S64, .f32⟩
  | .hbm, ⟨102, _⟩ => ⟨S64, .f32⟩
  | .hbm, ⟨103, _⟩ => ⟨S64, .f32⟩
  | .hbm, ⟨104, _⟩ => ⟨S_, .f32⟩
  | .hbm, ⟨105, _⟩ => ⟨S64, .f32⟩
  | .hbm, ⟨106, _⟩ => ⟨S64, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .f32⟩
  | _, _ => ⟨S64x512x28x28, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_3 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_4 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_5 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_6 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_7 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_8 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_9 : Ref sig .tc := ⟨.hbm, 60, rfl⟩
abbrev main_v48 : Ref sig .tc := ⟨.hbm, 61, rfl⟩
abbrev main_v49 : Ref sig .tc := ⟨.hbm, 62, rfl⟩
abbrev main_cst_10 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_c : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_cst_11 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_cst_12 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_cst_13 : Ref sig .tc := ⟨.hbm, 92, rfl⟩
abbrev main_v75 : Ref sig .tc := ⟨.hbm, 93, rfl⟩
abbrev main_v76 : Ref sig .tc := ⟨.hbm, 94, rfl⟩
abbrev main_cst_14 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_cst_15 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_cst_16 : Ref sig .tc := ⟨.hbm, 104, rfl⟩
abbrev main_v84 : Ref sig .tc := ⟨.hbm, 105, rfl⟩
abbrev main_v85 : Ref sig .tc := ⟨.hbm, 106, rfl⟩
abbrev main_cst_17 : Ref sig .tc := ⟨.hbm, 107, rfl⟩
abbrev main_v86 : Ref sig .tc := ⟨.hbm, 108, rfl⟩
abbrev main_cst_18 : Ref sig .tc := ⟨.hbm, 109, rfl⟩
abbrev main_v87 : Ref sig .tc := ⟨.hbm, 110, rfl⟩

abbrev nD : Nat := 1
abbrev τ : Topo := Topo.v7x

variable {F : FTy → Type} [FloatOps F]

class Facts₀ : Prop where
  shapeCasts_S64x512x28x28_S64x512x784 : S64x512x28x28.ShapeCasts S64x512x784
  reducesTo_S64x512x1_S64x1_d1 : S64x512x1.ReducesTo [1] S64x1
  h_S_ : 0 < S_.numel
  bcast_S64x1_S64x1x1_0_2 : S64x1.BroadcastsInDim S64x1x1 (![0, 2] : Fin 2 → Fin S64x1x1.rank)
  bcast_S_S64x1x1 : S_.BroadcastsInDim S64x1x1 (![] : Fin 0 → Fin S64x1x1.rank)
  bcast_S64x1x1_S64x512x1_0_1_2 : S64x1x1.BroadcastsInDim S64x512x1 (![0, 1, 2] : Fin 3 → Fin S64x512x1.rank)
  reducesTo_S64x512x1_S64_d1_2 : S64x512x1.ReducesTo [1, 2] S64
  bcast_S_S512x512 : S_.BroadcastsInDim S512x512 (![] : Fin 0 → Fin S512x512.rank)
  bcast_S512x512_S1x512x512_1_2 : S512x512.BroadcastsInDim S1x512x512 (![1, 2] : Fin 2 → Fin S1x512x512.rank)
  bcast_S64_S64x1x1_0 : S64.BroadcastsInDim S64x1x1 (![0] : Fin 1 → Fin S64x1x1.rank)
  bcast_S64x1x1_S64x512x512_0_1_2 : S64x1x1.BroadcastsInDim S64x512x512 (![0, 1, 2] : Fin 3 → Fin S64x512x512.rank)
  bcast_S1x512x512_S64x512x512_0_1_2 : S1x512x512.BroadcastsInDim S64x512x512 (![0, 1, 2] : Fin 3 → Fin S64x512x512.rank)
  bcast_S_S64 : S_.BroadcastsInDim S64 (![] : Fin 0 → Fin S64.rank)
  reducesTo_S64_S_d0 : S64.ReducesTo [0] S_
  dot_S64x512x784_S64x512x784_S64x512x512_2_2_1_1_0_0_wf : DotDims.WF S64x512x784 S64x512x784 S64x512x512 [2] [2] [1] [1] [0] [0]
  dot_S64x512x512_S64x512x1_S64x512x1_2_1_1_2_0_0_wf : DotDims.WF S64x512x512 S64x512x1 S64x512x1 [2] [1] [1] [2] [0] [0]

variable [Facts₀]

def dot_S64x512x784_S64x512x784_S64x512x512_2_2_1_1_0_0 : DotDims S64x512x784 S64x512x784 S64x512x512 where
  lhsContracting := [2]
  rhsContracting := [2]
  lhsNonContracting := [1]
  rhsNonContracting := [1]
  lhsBatch := [0]
  rhsBatch := [0]
  wf := dot_S64x512x784_S64x512x784_S64x512x512_2_2_1_1_0_0_wf
def dot_S64x512x512_S64x512x1_S64x512x1_2_1_1_2_0_0 : DotDims S64x512x512 S64x512x1 S64x512x1 where
  lhsContracting := [2]
  rhsContracting := [1]
  lhsNonContracting := [1]
  rhsNonContracting := [2]
  lhsBatch := [0]
  rhsBatch := [0]
  wf := dot_S64x512x512_S64x512x1_S64x512x1_2_1_1_2_0_0_wf

class Facts : Prop extends Facts₀ where

variable [Facts]
-- ==== Proof.Spec.lean ====
/-
  The mathematics of one batch entry, as plain functions on the extended reals.

  One batch entry carries a 512 x 784 array `a` and a starting vector `u` of length 512. With
  `M = a aᵀ` (the Gram matrix of the rows of `a`) both programs run a power iteration: five
  normalizations with four products by `M` between them give `x₁`; its Rayleigh quotient is
  `largest`; one more step on `M - largest·I` gives `x₂`, whose Rayleigh quotient for the shifted
  matrix is `tmp`; the entry's penalty is `(largest / (tmp + largest) - 1)²`.

  The two programs differ in two places only. The kernel normalizes by `x · rsqrt (max ‖x‖² c)`,
  the reference by `x / max (sqrt ‖x‖²) e`; and the kernel applies the shift to the vector,
  `M x - largest · x`, where the reference subtracts `largest` times the identity from the matrix
  before the product. Every operation below is the exact one on the extended reals
  (`Ideal.div`, `Ideal.sqrt`, `Ideal.rsqrt`, `max`), with its conventions at the corners.
-/
import Idealize.ShloMosaic.PureOps.Ideal

noncomputable section

namespace PowerIter

open Idealize.ShloMosaic

/-- A vector of one batch entry. -/
abbrev Vect := Fin 512 → EReal
/-- A square matrix of one batch entry. -/
abbrev Mat := Fin 512 → Fin 512 → EReal

/-- The Gram matrix of the rows of `a`: entry `(j, k)` is the inner product of rows `j` and `k`. -/
def gram (a : Fin 512 → Fin 784 → EReal) : Mat := fun j k => ∑ d : Fin 784, a j d * a k d

/-- Matrix times vector. -/
def mv (M : Mat) (x : Vect) : Vect := fun j => ∑ k : Fin 512, M j k * x k

/-- The squared Euclidean norm. -/
def sq (x : Vect) : EReal := ∑ j : Fin 512, x j * x j

/-- The inner product. -/
def dotp (x y : Vect) : EReal := ∑ j : Fin 512, x j * y j

/-- The kernel's normalization: times the reciprocal square root of the squared norm clamped below by `c`. -/
def normK (c : EReal) (x : Vect) : Vect := fun j => x j * Ideal.rsqrt (max (sq x) c)

/-- The reference's normalization: divided by the norm clamped below by `e`. -/
def normR (e : EReal) (x : Vect) : Vect := fun j => Ideal.div (x j) (max (Ideal.sqrt (sq x)) e)

/-- The Rayleigh quotient `xᵀ M x / xᵀ x`. -/
def ray (M : Mat) (x : Vect) : EReal := Ideal.div (dotp (mv M x) x) (sq x)

/-- The identity matrix's entries. -/
def delta (j k : Fin 512) : EReal := if j = k then 1 else 0

/-- The kernel's shifted product: `M x - L · x`, the shift applied to the vector. -/
def shiftVec (M : Mat) (L : EReal) (x : Vect) : Vect := fun j => mv M x j - L * x j

/-- The reference's shifted matrix `M - L · I`. -/
def shiftMat (M : Mat) (L : EReal) : Mat := fun j k => M j k - L * delta j k

/-- From the two quotients to the entry's penalty: `one · (L / (T + L) - one)²`. -/
def tail (one L T : EReal) : EReal := one * ((Ideal.div L (T + L) - one) * (Ideal.div L (T + L) - one))

/-- The kernel's iterate `x₁`: five normalizations, four products. -/
def iterK (c : EReal) (M : Mat) (u : Vect) : Vect :=
  normK c (mv M (normK c (mv M (normK c (mv M (normK c (mv M (normK c u))))))))

/-- The reference's iterate `x₁`. -/
def iterR (e : EReal) (M : Mat) (u : Vect) : Vect :=
  normR e (mv M (normR e (mv M (normR e (mv M (normR e (mv M (normR e u))))))))

/-- The dominant-eigenvalue estimate, kernel's and reference's. -/
def largestK (c : EReal) (M : Mat) (u : Vect) : EReal := ray M (iterK c M u)
def largestR (e : EReal) (M : Mat) (u : Vect) : EReal := ray M (iterR e M u)

/-- The iterate `x₂` of the shifted problem. -/
def secondK (c : EReal) (M : Mat) (u : Vect) : Vect := normK c (shiftVec M (largestK c M u) (iterK c M u))
def secondR (e : EReal) (M : Mat) (u : Vect) : Vect := normR e (mv (shiftMat M (largestR e M u)) (iterR e M u))

/-- The shifted problem's Rayleigh quotient at `x₂`. -/
def tmpK (c : EReal) (M : Mat) (u : Vect) : EReal :=
  Ideal.div (dotp (shiftVec M (largestK c M u) (secondK c M u)) (secondK c M u)) (sq (secondK c M u))
def tmpR (e : EReal) (M : Mat) (u : Vect) : EReal :=
  Ideal.div (dotp (mv (shiftMat M (largestR e M u)) (secondR e M u)) (secondR e M u)) (sq (secondR e M u))

/-- One batch entry's penalty, as the kernel and as the reference compute it. -/
def penaltyK (c one : EReal) (a : Fin 512 → Fin 784 → EReal) (u : Vect) : EReal :=
  tail one (largestK c (gram a) u) (tmpK c (gram a) u)
def penaltyR (e one : EReal) (a : Fin 512 → Fin 784 → EReal) (u : Vect) : EReal :=
  tail one (largestR e (gram a) u) (tmpR e (gram a) u)

end PowerIter

end
-- ==== Proof.KerOps.lean ====
/-
  The kernel body's vector operations on a block of eight batch entries, read one entry at a time.

  A block holds eight entries; `row2 y b` is entry `b`'s vector out of an 8 x 512 block and
  `row3 Mt b` its matrix out of an 8 x 512 x 512 block. Each lemma says that one group of the
  body's operations, restricted to entry `b`, is the corresponding function of `PowerIter`.
-/
import proofs.«410538_j6433861009619_3_alg».proof.Proof.Gen.KernelIdeal.Skeleton
import proofs.«410538_j6433861009619_3_alg».proof.Proof.Spec
import Idealize.ShloMosaic.Lib.ValueIdx
import Idealize.ShloMosaic.Lib.Pipeline.Value
import Idealize.ShloMosaic.PureOps.Ideal.Laws

noncomputable section

namespace Cert.KernelIdeal.KerOps

open Idealize.ShloMosaic Cert.KernelIdeal Cert.KernelIdeal.Gen PowerIter ValueIdx

/-- The kernel's clamp constant under the square root, and the literal one. -/
abbrev clampK : EReal := Ideal.ofBits .f32 0x179ABE15#32
abbrev oneLit : EReal := Ideal.ofBits .f32 0x3F800000#32

/-- Entry `b`'s vector of an 8 x 512 block. -/
def row2 (y : FVec Ideal S8x512 .f32) (b : Fin 8) : Vect := fun j => y (ix2 b j)
/-- Entry `b`'s matrix of an 8 x 512 x 512 block. -/
def row3 (Mt : FVec Ideal S8x512x512 .f32) (b : Fin 8) : Mat := fun j k => Mt (ix3 b j k)

/-- A column of height one spread along the 512 axis reads, at `(b, j)`, the column at `(b, 0)`. -/
theorem spreadCol_apply (c : FVec Ideal S8x1 .f32) (b : Fin 8) (j : Fin 512) :
    broadcastTo S8x512 c broadcasts_S8x1_S8x512 (ix2 b j) = c (ix2 b (0 : Fin 1)) :=
  broadcastTo_apply c broadcasts_S8x1_S8x512 (ix2 b j) (ix2 b (0 : Fin 1)) fun a => by
    match a with
    | ⟨0, _⟩ => rfl
    | ⟨1, _⟩ => rfl

/-- A vector of eight viewed as a column of height one reads, at `(b, z)`, the vector at `b`: both
    indices have row-major position `b`. -/
theorem colCast_apply (p : FVec Ideal S8 .f32) (b : Fin 8) (z : Fin 1) :
    shapeCast S8x1 p shapeCasts_S8_S8x1 (ix2 b z) = p (ix1 b) :=
  shapeCast_apply p shapeCasts_S8_S8x1 _ _ (by
    have hz : z.val = 0 := by omega
    rw [Shape.rowMajor_val_two, Shape.rowMajor_val_one]
    show b.val = b.val * 1 + z.val
    omega)

/-- An 8 x 512 block viewed as 8 x 1 x 512 and spread along the middle axis reads, at `(b, j, k)`, the
    block at `(b, k)`. -/
theorem rowSpread_apply (y : FVec Ideal S8x512 .f32) (b : Fin 8) (j k : Fin 512) :
    broadcastTo S8x512x512 (shapeCast S8x1x512 y shapeCasts_S8x512_S8x1x512) broadcasts_S8x1x512_S8x512x512 (ix3 b j k)
      = y (ix2 b k) := by
  refine (broadcastTo_apply _ broadcasts_S8x1x512_S8x512x512 (ix3 b j k) (ix3 b (0 : Fin 1) k) fun a => by
    match a with
    | ⟨0, _⟩ => rfl
    | ⟨1, _⟩ => rfl
    | ⟨2, _⟩ => rfl).trans ?_
  exact shapeCast_apply y shapeCasts_S8x512_S8x1x512 _ _ (by
    rw [Shape.rowMajor_val_three, Shape.rowMajor_val_two]
    show b.val * 512 + k.val = (b.val * 1 + 0) * 512 + k.val
    omega)

/-- The matrix product of the block with its own transpose is, entry by entry, the Gram matrix. -/
theorem gram_read (v0 : Vec Ideal S8x512x784 .f32) (b : Fin 8) :
    row3 (k0_pay2 (F := Ideal) v0) b = gram (fun j d => v0 (ix3 b j d)) := by
  funext j k
  show k0_pay2 (F := Ideal) v0 (ix3 b j k) = ∑ d : Fin 784, v0 (ix3 b j d) * v0 (ix3 b k d)
  unfold k0_pay2
  simp only [shapeCast_self, matmul]
  rw [Ideal.matmul_constant_zero_apply, ← Equiv.sum_comp (contrEquiv1 dot_S8x512x784_S8x512x784_S8x512x512_2_2_1_1_0_0 784 rfl rfl).symm]
  refine Finset.sum_congr rfl fun c _ => ?_
  have c3 := contrEquiv1_symm_val dot_S8x512x784_S8x512x784_S8x512x512_2_2_1_1_0_0 784 rfl rfl c
  have l3 : dot_S8x512x784_S8x512x784_S8x512x512_2_2_1_1_0_0.lhsIdx (ix3 b j k) ((contrEquiv1 _ 784 rfl rfl).symm c) = ix3 b j c := by
    funext ax; apply Fin.ext
    match ax with
    | ⟨0, _⟩ => simp [DotDims.lhsIdx, dot_S8x512x784_S8x512x784_S8x512x512_2_2_1_1_0_0]; rfl
    | ⟨1, _⟩ => simp [DotDims.lhsIdx, dot_S8x512x784_S8x512x784_S8x512x512_2_2_1_1_0_0]; rfl
    | ⟨2, _⟩ => simp [DotDims.lhsIdx, dot_S8x512x784_S8x512x784_S8x512x512_2_2_1_1_0_0]; exact c3
  have r3 : dot_S8x512x784_S8x512x784_S8x512x512_2_2_1_1_0_0.rhsIdx (ix3 b j k) ((contrEquiv1 _ 784 rfl rfl).symm c) = ix3 b k c := by
    funext ax; apply Fin.ext
    match ax with
    | ⟨0, _⟩ => simp [DotDims.rhsIdx, dot_S8x512x784_S8x512x784_S8x512x512_2_2_1_1_0_0]; rfl
    | ⟨1, _⟩ => simp [DotDims.rhsIdx, dot_S8x512x784_S8x512x784_S8x512x512_2_2_1_1_0_0]; rfl
    | ⟨2, _⟩ => simp [DotDims.rhsIdx, dot_S8x512x784_S8x512x784_S8x512x512_2_2_1_1_0_0]; exact c3
  rw [l3, r3]

/-- A lane sum over the 512 axis, at entry `b`. -/
theorem sum_read (z : FVec Ideal S8x512 .f32) (b : Fin 8) :
    multiReduction .add [1] S8 z 0x00000000#32 reduces_S8x512_S8 (.inl rfl) rfl (ix1 b) = ∑ j : Fin 512, z (ix2 b j) := by
  refine (Ideal.multiReduction_add_single z 0x00000000#32 reduces_S8x512_S8 (.inl rfl) rfl (ix1 b)).trans ?_
  refine Finset.sum_congr rfl fun k _ => congrArg z ?_
  funext a
  match a with
  | ⟨0, _⟩ => rfl
  | ⟨1, _⟩ => rfl

/-- A per-entry scalar spread along the 512 axis. -/
theorem spread_read (L : FVec Ideal S8 .f32) (b : Fin 8) (j : Fin 512) :
    broadcastTo S8x512 (shapeCast S8x1 L shapeCasts_S8_S8x1) broadcasts_S8x1_S8x512 (ix2 b j) = L (ix1 b) :=
  (spreadCol_apply _ b j).trans (colCast_apply L b 0)

/-- A per-entry scalar as a column of height one. -/
theorem column_read (p : FVec Ideal S8 .f32) (b : Fin 8) (z : Fin 1) :
    shapeCast S8x1 p shapeCasts_S8_S8x1 (ix2 b z) = p (ix1 b) :=
  colCast_apply p b z

/-- The body's normalization of a block, at entry `b`. -/
theorem norm_read (y : FVec Ideal S8x512 .f32) (b : Fin 8) :
    row2 (mulf y (broadcastTo S8x512 (rsqrt (maximumf (shapeCast S8x1 (multiReduction .add [1] S8 (mulf y y) 0x00000000#32 reduces_S8x512_S8 (.inl rfl) rfl) shapeCasts_S8_S8x1) (broadcast S8x1 (Scalar.ofBits (F := Ideal) .f32 0x179ABE15#32)))) broadcasts_S8x1_S8x512)) b
      = normK clampK (row2 y b) := by
  funext j
  show y (ix2 b j) * broadcastTo S8x512 _ broadcasts_S8x1_S8x512 (ix2 b j)
      = y (ix2 b j) * Ideal.rsqrt (max (sq (row2 y b)) clampK)
  rw [spreadCol_apply]
  show y (ix2 b j) * Ideal.rsqrt (max (shapeCast S8x1 _ shapeCasts_S8_S8x1 (ix2 b (0 : Fin 1))) clampK) = _
  rw [colCast_apply, sum_read]
  rfl

/-- The body's matrix-vector product (multiply along the last axis, then sum it), at entry `b`. -/
theorem mv_read (Mt : FVec Ideal S8x512x512 .f32) (y : FVec Ideal S8x512 .f32) (b : Fin 8) :
    row2 (multiReduction .add [2] S8x512 (mulf Mt (broadcastTo S8x512x512 (shapeCast S8x1x512 y shapeCasts_S8x512_S8x1x512) broadcasts_S8x1x512_S8x512x512)) 0x00000000#32 reduces_S8x512x512_S8x512 (.inl rfl) rfl) b
      = mv (row3 Mt b) (row2 y b) := by
  funext j
  show multiReduction .add [2] S8x512 _ 0x00000000#32 reduces_S8x512x512_S8x512 (.inl rfl) rfl (ix2 b j)
      = ∑ k : Fin 512, Mt (ix3 b j k) * y (ix2 b k)
  refine (Ideal.multiReduction_add_single _ 0x00000000#32 reduces_S8x512x512_S8x512 (.inl rfl) rfl (ix2 b j)).trans ?_
  refine Finset.sum_congr rfl fun (k : Fin 512) _ => ?_
  have hidx : reduces_S8x512x512_S8x512.lift (ix2 b j) k = ix3 b j k := by
    funext a
    match a with
    | ⟨0, _⟩ => rfl
    | ⟨1, _⟩ => rfl
    | ⟨2, _⟩ => rfl
  rw [hidx]
  exact congrArg (Mt (ix3 b j k) * ·) (rowSpread_apply y b j k)

end Cert.KernelIdeal.KerOps

end
-- ==== Proof.KerPayload.lean ====
/-
  What the kernel body stores for one batch entry of a block: the entry's penalty as the kernel
  computes it, `PowerIter.penaltyK` of the entry's rows of the two loaded blocks.

  The body's values are read one entry at a time. The first part gives the Gram matrix `M`, the
  vector `M n(M n(M n(u)))` (`n` the normalization) and its squared norm; the second part normalizes
  that vector with the squared norm it is handed, multiplies and normalizes once more (the iterate
  `x₁`), takes its Rayleigh quotient (`largest`), normalizes `M x₁ - largest · x₁` (the iterate
  `x₂`) and multiplies it by `M`; the closing formula forms the shifted Rayleigh quotient of `x₂`
  and the penalty `(largest / (tmp + largest) - 1)²`.
-/
import proofs.«410538_j6433861009619_3_alg».proof.Proof.Gen.KernelIdeal.Frame
import proofs.«410538_j6433861009619_3_alg».proof.Proof.KerOps

noncomputable section

namespace Cert.KernelIdeal.Payload

open Idealize.ShloMosaic Cert.KernelIdeal Cert.KernelIdeal.Gen Cert.KernelIdeal.KerOps PowerIter ValueIdx

/-! ## Sums of products at one entry -/

/-- The lane sum of a product of two blocks, at entry `b`: the inner product of the entry's two vectors. -/
theorem dot_read (y w : FVec Ideal S8x512 .f32) (b : Fin 8) :
    multiReduction .add [1] S8 (mulf y w) 0x00000000#32 reduces_S8x512_S8 (.inl rfl) rfl (ix1 b)
      = dotp (row2 y b) (row2 w b) :=
  (sum_read (mulf y w) b).trans rfl

/-- The lane sum of a block's squares, at entry `b`: the squared norm of the entry's vector. -/
theorem sq_read (y : FVec Ideal S8x512 .f32) (b : Fin 8) :
    multiReduction .add [1] S8 (mulf y y) 0x00000000#32 reduces_S8x512_S8 (.inl rfl) rfl (ix1 b)
      = PowerIter.sq (row2 y b) :=
  (sum_read (mulf y y) b).trans rfl

/-! ## The groups of operations that are not already one of the per-operation readings -/

/-- A block scaled by the reciprocal square root of a clamped per-entry scalar `n2`, at entry `b`:
    the normalization when the squared norm is handed in rather than summed again. -/
theorem scale_read (y : FVec Ideal S8x512 .f32) (n2 : FVec Ideal S8 .f32) (b : Fin 8) :
    row2 (mulf y (broadcastTo S8x512 (rsqrt (maximumf (shapeCast S8x1 n2 shapeCasts_S8_S8x1) (broadcast S8x1 (Scalar.ofBits (F := Ideal) .f32 0x179ABE15#32)))) broadcasts_S8x1_S8x512)) b
      = fun j => row2 y b j * Ideal.rsqrt (max (n2 (ix1 b)) clampK) := by
  funext j
  exact congrArg (y (ix2 b j) * ·) (spread_read (rsqrt (maximumf n2 (broadcast S8 (Scalar.ofBits (F := Ideal) .f32 0x179ABE15#32)))) b j)

/-- The quotient of the two lane sums `(M x) · x` and `x · x`, at entry `b`: the Rayleigh quotient. -/
theorem ray_read (Mt : FVec Ideal S8x512x512 .f32) (x : FVec Ideal S8x512 .f32) (b : Fin 8) :
    divf (multiReduction .add [1] S8 (mulf (multiReduction .add [2] S8x512 (mulf Mt (broadcastTo S8x512x512 (shapeCast S8x1x512 x shapeCasts_S8x512_S8x1x512) broadcasts_S8x1x512_S8x512x512)) 0x00000000#32 reduces_S8x512x512_S8x512 (.inl rfl) rfl) x) 0x00000000#32 reduces_S8x512_S8 (.inl rfl) rfl)
        (multiReduction .add [1] S8 (mulf x x) 0x00000000#32 reduces_S8x512_S8 (.inl rfl) rfl) (ix1 b)
      = ray (row3 Mt b) (row2 x b) := by
  rw [divf_apply, sq_read x b, dot_read _ x b, mv_read]
  rfl

/-- The product by the matrix minus the per-entry scalar `L` times the vector, at entry `b`: the shift
    applied to the vector. -/
theorem shift_read (Mt : FVec Ideal S8x512x512 .f32) (x : FVec Ideal S8x512 .f32) (L : FVec Ideal S8 .f32) (b : Fin 8) :
    row2 (subf (multiReduction .add [2] S8x512 (mulf Mt (broadcastTo S8x512x512 (shapeCast S8x1x512 x shapeCasts_S8x512_S8x1x512) broadcasts_S8x1x512_S8x512x512)) 0x00000000#32 reduces_S8x512x512_S8x512 (.inl rfl) rfl)
        (mulf (broadcastTo S8x512 (shapeCast S8x1 L shapeCasts_S8_S8x1) broadcasts_S8x1_S8x512) x)) b
      = shiftVec (row3 Mt b) (L (ix1 b)) (row2 x b) := by
  funext j
  exact congrArg₂ (fun p q => p - q * x (ix2 b j)) (congrFun (mv_read Mt x b) j) (spread_read L b j)

/-! ## The payloads at one entry -/

/-- The first part's vector: three normalizations and three products, starting from the loaded vector. -/
theorem pay3_read (v0 : Vec Ideal S8x512x784 .f32) (v2 : Vec Ideal S8x512 .f32) (b : Fin 8) :
    row2 (k0_pay3 (F := Ideal) v0 v2) b
      = mv (gram fun j d => v0 (ix3 b j d)) (normK clampK (mv (gram fun j d => v0 (ix3 b j d)) (normK clampK
          (mv (gram fun j d => v0 (ix3 b j d)) (normK clampK (fun j => v2 (ix2 b j))))))) := by
  unfold k0_pay3
  dsimp only
  rw [mv_read, norm_read, mv_read, norm_read, mv_read, norm_read, shapeCast_self, gram_read]
  rfl

/-- The first part's scalar: the squared norm of its vector. -/
theorem pay4_read (v0 : Vec Ideal S8x512x784 .f32) (v2 : Vec Ideal S8x512 .f32) (b : Fin 8) :
    k0_pay4 (F := Ideal) v0 v2 (ix1 b) = PowerIter.sq (row2 (k0_pay3 (F := Ideal) v0 v2) b) := by
  unfold k0_pay4
  exact sq_read _ b

section SecondPart

variable (v4 : FVec Ideal S8x512x512 .f32) (v40 : FVec Ideal S8x512 .f32) (v42 : FVec Ideal S8 .f32) (b : Fin 8)
  (M : Mat) (hM : row3 v4 b = M)

include hM

/-- The iterate `x₁`: normalize by the squared norm handed in, multiply, normalize. -/
theorem pay5_read (h42 : v42 (ix1 b) = PowerIter.sq (row2 v40 b)) :
    row2 (k0_pay5 v4 v40 v42) b = normK clampK (mv M (normK clampK (row2 v40 b))) := by
  unfold k0_pay5
  dsimp only
  rw [norm_read, mv_read, scale_read, hM, h42]
  rfl

/-- `largest`: the Rayleigh quotient of `x₁`. -/
theorem pay6_read : k0_pay6 v4 v40 v42 (ix1 b) = ray M (row2 (k0_pay5 v4 v40 v42) b) := by
  unfold k0_pay6
  dsimp only
  rw [ray_read, hM]

/-- The iterate `x₂`: the shifted product of `x₁`, normalized. -/
theorem pay7_read :
    row2 (k0_pay7 v4 v40 v42) b
      = normK clampK (shiftVec M (k0_pay6 v4 v40 v42 (ix1 b)) (row2 (k0_pay5 v4 v40 v42) b)) := by
  unfold k0_pay7
  dsimp only
  rw [norm_read, shift_read, hM]

/-- The product of the matrix with `x₂`. -/
theorem pay8_read : row2 (k0_pay8 v4 v40 v42) b = mv M (row2 (k0_pay7 v4 v40 v42) b) := by
  unfold k0_pay8
  dsimp only
  rw [mv_read, hM]

omit hM in
/-- `largest` spread along the entry's vector. -/
theorem pay9_read (j : Fin 512) : k0_pay9 v4 v40 v42 (ix2 b j) = k0_pay6 v4 v40 v42 (ix1 b) := by
  unfold k0_pay9
  exact spread_read _ b j

end SecondPart

/-- The stored column: from `largest` (`v69`), `x₂` (`v85`), the product `M x₂` (`v89`) and `largest` spread
    (`v91`) to the penalty's closing formula. -/
theorem pay1_read (v69 : FVec Ideal S8 .f32) (v85 v89 v91 : FVec Ideal S8x512 .f32) (b : Fin 8) (z : Fin 1) :
    k0_pay1 v69 v85 v89 v91 (ix2 b z)
      = tail oneLit (v69 (ix1 b))
          (Ideal.div (dotp (fun j => v89 (ix2 b j) - v91 (ix2 b j) * v85 (ix2 b j)) (row2 v85 b)) (PowerIter.sq (row2 v85 b))) := by
  unfold k0_pay1
  dsimp only
  rw [column_read]
  simp only [mulf_apply, subf_apply, divf_apply, addf_apply, broadcast_apply]
  rw [sq_read v85 b, dot_read _ v85 b]
  rfl

/-! ## The stored block -/

/-- The origin of a rank-2 rectangle, however its zeros are spelt. -/
theorem zero2 : (![0, 0] : Fin 2 → Nat) = fun _ => 0 :=
  funext fun a => match a with | ⟨0, _⟩ => rfl | ⟨1, _⟩ => rfl
/-- The origin of a rank-3 rectangle. -/
theorem zero3 : (![0, 0, 0] : Fin 3 → Nat) = fun _ => 0 :=
  funext fun a => match a with | ⟨0, _⟩ => rfl | ⟨1, _⟩ => rfl | ⟨2, _⟩ => rfl

/-- The stored 8 x 1 block at entry `b` is that entry's penalty. -/
theorem out_block_eq (x0 : Vec Ideal S8x512x784 .f32) (x1 : Vec Ideal S8x512 .f32) (b : Fin 8) (z : Fin 1) :
    out0_2 (F := Ideal) x0 x1 (ix2 b z)
      = penaltyK clampK oneLit (fun j d => x0 (ix3 b j d)) (fun j => x1 (ix2 b j)) := by
  unfold out0_2
  rw [View.canon_unit_zero zero2]
  simp only [View.ld_unit_zero (S := S8x512x784) zero3, View.ld_unit_zero (S := S8x512) zero2]
  have hM := gram_read x0 b
  have h3 := pay3_read x0 x1 b
  have h4 := pay4_read x0 x1 b
  have h5 := pay5_read _ _ _ b _ hM h4
  have h6 := pay6_read _ (k0_pay3 (F := Ideal) x0 x1) (k0_pay4 (F := Ideal) x0 x1) b _ hM
  have h7 := pay7_read _ (k0_pay3 (F := Ideal) x0 x1) (k0_pay4 (F := Ideal) x0 x1) b _ hM
  have h8 := pay8_read _ (k0_pay3 (F := Ideal) x0 x1) (k0_pay4 (F := Ideal) x0 x1) b _ hM
  rw [pay1_read]
  have hs : (fun j => k0_pay8 (k0_pay2 (F := Ideal) x0) (k0_pay3 (F := Ideal) x0 x1) (k0_pay4 (F := Ideal) x0 x1) (ix2 b j)
        - k0_pay9 (k0_pay2 (F := Ideal) x0) (k0_pay3 (F := Ideal) x0 x1) (k0_pay4 (F := Ideal) x0 x1) (ix2 b j)
          * k0_pay7 (k0_pay2 (F := Ideal) x0) (k0_pay3 (F := Ideal) x0 x1) (k0_pay4 (F := Ideal) x0 x1) (ix2 b j))
      = shiftVec (gram fun j d => x0 (ix3 b j d))
          (k0_pay6 (k0_pay2 (F := Ideal) x0) (k0_pay3 (F := Ideal) x0 x1) (k0_pay4 (F := Ideal) x0 x1) (ix1 b))
          (row2 (k0_pay7 (k0_pay2 (F := Ideal) x0) (k0_pay3 (F := Ideal) x0 x1) (k0_pay4 (F := Ideal) x0 x1)) b) := by
    funext j
    rw [pay9_read]
    exact congrArg (· - _ * _) (congrFun h8 j)
  rw [hs, h7, h6, h5, h3]
  rfl

end Cert.KernelIdeal.Payload

end
-- ==== Proof.KerValue.lean ====
/-
  The kernel program's result as one function of its two arguments.

  The region's output array (64 x 1) ends holding, at row `B`, batch entry `B`'s penalty as the
  kernel computes it: grid point `t` handles the eight entries `8 t .. 8 t + 7`, reads their rows of
  the two reshaped arguments and writes their eight penalties back, and the eight points' blocks
  tile the array. After the region the program drops the unit axis, sums the 64 penalties and
  divides by 64.
-/
import proofs.«410538_j6433861009619_3_alg».proof.Proof.Gen.KernelIdeal.Frame
import proofs.«410538_j6433861009619_3_alg».proof.Proof.KerPayload
import Idealize.ShloMosaic.Lib.Pipeline.Value
import Idealize.ShloMosaic.Lib.StableHlo.Run
import Idealize.ShloMosaic.Lib.ValueIdx

set_option maxRecDepth 16384

noncomputable section

namespace Cert.KernelIdeal.KerValue

open Idealize.ShloMosaic Idealize.ShloMosaic.TcCoe Idealize.SL.Sem
open Cert.KernelIdeal Cert.KernelIdeal.Gen Cert.KernelIdeal.KerOps PowerIter ValueIdx
open Idealize.ShloMosaic.Pipeline (Dat Cfg Window)

variable (m : (ℓ : Loc nD τ sig) → Buf (Elt Ideal) ℓ) (ρ : Dev nD → PrngReg)

/-- Entry `B`'s 512 x 784 rows of the first argument, the two spatial axes merged. -/
def arows (A : FVec Ideal S64x512x28x28 .f32) (B : Fin 64) : Fin 512 → Fin 784 → EReal :=
  fun j d => shapeCast S64x512x784 A shapeCasts_S64x512x28x28_S64x512x784 (ix3 B j d)

/-- Entry `B`'s starting vector out of the second argument. -/
def urow (x : FVec Ideal S64x512x1 .f32) (B : Fin 64) : Vect := fun j => x (ix3 B j 0)

/-- The 64 x 1 array of the entries' penalties. -/
def pen (A : FVec Ideal S64x512x28x28 .f32) (x : FVec Ideal S64x512x1 .f32) : FVec Ideal S64x1 .f32 :=
  fun i => penaltyK clampK oneLit (arows A ⟨(i 0).val, idx2_lt0 i⟩) (urow x ⟨(i 0).val, idx2_lt0 i⟩)

/-! ## The arrays the region finds -/

/-- The region's first operand is the first argument with its two spatial axes merged. -/
theorem V_v0 (c : Dev nD) :
    (V m c main_v0 : FVec Ideal S64x512x784 .f32) = shapeCast S64x512x784 (m ((c : Thread nD τ).loc main_arg0)) shapeCasts_S64x512x28x28_S64x512x784 := by
  show StableHlo.after hostOps0 (fun b => m (c, b)) (Proc.devRef .tc main_v0) = _
  after_results
  rfl

/-- The region's second operand is the second argument with its unit axis dropped. -/
theorem V_v1 (c : Dev nD) :
    (V m c main_v1 : FVec Ideal S64x512 .f32) = shapeCast S64x512 (m ((c : Thread nD τ).loc main_arg1)) shapeCasts_S64x512x1_S64x512 := by
  show StableHlo.after hostOps0 (fun b => m (c, b)) (Proc.devRef .tc main_v1) = _
  after_results
  rfl

/-! ## The index maps, decided over the grid -/

theorem idx_facts : ∀ t : Fin cfg0.N, win0_0.index t (0 : Fin 3) = win0_2.index t (0 : Fin 2)
    ∧ win0_0.index t (1 : Fin 3) = 0 ∧ win0_0.index t (2 : Fin 3) = 0
    ∧ win0_1.index t (0 : Fin 2) = win0_2.index t (0 : Fin 2) ∧ win0_1.index t (1 : Fin 2) = 0
    ∧ win0_2.index t (1 : Fin 2) = 0 ∧ win0_2.index t (0 : Fin 2) ≤ 7 :=
  (by decide +kernel : ∀ t : Fin grid0.N, _)

theorem idx_onto : ∀ q : Fin 8, ∃ t : Fin cfg0.N, win0_2.index t = ![q.val, 0] :=
  (by decide +kernel : ∀ q : Fin 8, ∃ t : Fin grid0.N, win0_2.index t = ![q.val, 0])

/-! ## A point's blocks -/

/-- The reshaped second operand at (B, j) is the second argument at (B, j, 0). -/
theorem v1_apply (x : FVec Ideal S64x512x1 .f32) (B : Fin 64) (j : Fin 512) :
    shapeCast S64x512 x shapeCasts_S64x512x1_S64x512 (ix2 B j) = x (ix3 B j 0) :=
  shapeCast_apply x _ (ix2 B j) (ix3 B j 0) (by
    rw [Shape.rowMajor_val_three, Shape.rowMajor_val_two]
    show ((B.val * 512 + j.val) * 1 + 0) = B.val * 512 + j.val
    omega)

/-- Point `t`'s block of the first operand holds entries `8 t .. 8 t + 7`: entry `b` of the block is entry `8 t + b` of the array. -/
theorem iblk0_read (c : Dev nD) (t : Fin cfg0.N) (b : Fin 8) (j : Fin 512) (d : Fin 784)
    (hb : win0_2.index t (0 : Fin 2) * 8 + b.val < 64) :
    iblk m c 0 t (ix3 b j d) = (V m c main_v0 : FVec Ideal S64x512x784 .f32) (ix3 ⟨win0_2.index t (0 : Fin 2) * 8 + b.val, hb⟩ j d) := by
  obtain ⟨e0, e1, e2, e3, e4, e5, e6⟩ := idx_facts t
  show V m c main_v0 (((cfg0.win 0).blk t).view.emb (ix3 b j d)) = V m c main_v0 _
  refine congrArg _ (funext fun a => Fin.ext ?_)
  match a with
  | ⟨0, _⟩ => show win0_0.index t (0 : Fin 3) * 8 + 1 * b.val = win0_2.index t (0 : Fin 2) * 8 + b.val; omega
  | ⟨1, _⟩ => show win0_0.index t (1 : Fin 3) * 512 + 1 * j.val = j.val; omega
  | ⟨2, _⟩ => show win0_0.index t (2 : Fin 3) * 784 + 1 * d.val = d.val; omega

/-- The same for the second operand. -/
theorem iblk1_read (c : Dev nD) (t : Fin cfg0.N) (b : Fin 8) (j : Fin 512)
    (hb : win0_2.index t (0 : Fin 2) * 8 + b.val < 64) :
    iblk m c 1 t (ix2 b j) = (V m c main_v1 : FVec Ideal S64x512 .f32) (ix2 ⟨win0_2.index t (0 : Fin 2) * 8 + b.val, hb⟩ j) := by
  obtain ⟨e0, e1, e2, e3, e4, e5, e6⟩ := idx_facts t
  show V m c main_v1 (((cfg0.win 1).blk t).view.emb (ix2 b j)) = V m c main_v1 _
  refine congrArg _ (funext fun a => Fin.ext ?_)
  match a with
  | ⟨0, _⟩ => show win0_1.index t (0 : Fin 2) * 8 + 1 * b.val = win0_2.index t (0 : Fin 2) * 8 + b.val; omega
  | ⟨1, _⟩ => show win0_1.index t (1 : Fin 2) * 512 + 1 * j.val = j.val; omega

/-- What point `t` writes back is block `t` of the array of penalties. -/
theorem flushed_eq (c : Dev nD) (t : Fin cfg0.N) :
    (dats m 0 c).flushed 2 t = ((cfg0.win 2).blk t).view.read (Elt Ideal)
      (pen (m ((c : Thread nD τ).loc main_arg0)) (m ((c : Thread nD τ).loc main_arg1))) := by
  show (cfg0.win 2).cut (grid0.coords t) ((dats m 0 c).after 2 t) = _
  rw [after0_2]
  funext y
  obtain ⟨e0, e1, e2, e3, e4, e5, e6⟩ := idx_facts t
  have hy0 : (y 0).val < 8 := (y 0).isLt
  have hy1 : (y 1).val < 1 := (y 1).isLt
  have hb : win0_2.index t (0 : Fin 2) * 8 + (y 0).val < 64 := by omega
  have hy : y = ix2 (⟨(y 0).val, hy0⟩ : Fin 8) (⟨(y 1).val, hy1⟩ : Fin 1) :=
    funext fun a => Fin.ext (by match a with | ⟨0, _⟩ => rfl | ⟨1, _⟩ => rfl)
  show out0_2 (iblk m c 0 t) (iblk m c 1 t) y = pen _ _ (((cfg0.win 2).blk t).view.emb y)
  rw [hy, Payload.out_block_eq]
  unfold pen
  have hi : ((((cfg0.win 2).blk t).view.emb (ix2 (⟨(y 0).val, hy0⟩ : Fin 8) (⟨(y 1).val, hy1⟩ : Fin 1))) 0).val
      = win0_2.index t (0 : Fin 2) * 8 + (y 0).val := by
    show win0_2.index t (0 : Fin 2) * 8 + 1 * (y 0).val = _; omega
  have ha : (fun j d => iblk m c 0 t (ix3 (⟨(y 0).val, hy0⟩ : Fin 8) j d))
      = arows (m ((c : Thread nD τ).loc main_arg0)) ⟨win0_2.index t (0 : Fin 2) * 8 + (y 0).val, hb⟩ := by
    funext j d
    rw [iblk0_read m c t ⟨(y 0).val, hy0⟩ j d hb, V_v0]
    rfl
  have hu : (fun j => iblk m c 1 t (ix2 (⟨(y 0).val, hy0⟩ : Fin 8) j))
      = urow (m ((c : Thread nD τ).loc main_arg1)) ⟨win0_2.index t (0 : Fin 2) * 8 + (y 0).val, hb⟩ := by
    funext j
    rw [iblk1_read m c t ⟨(y 0).val, hy0⟩ j hb, V_v1, v1_apply]
    rfl
  rw [ha, hu]
  congr 2 <;> exact Fin.ext hi.symm

/-! ## From blocks to the array -/

/-- An index of the array is in point `t`'s block iff each coordinate is in the block's range on its axis. -/
theorem mem_blk (t : Fin cfg0.N) (i : S64x1.Idx) :
    i ∈ ((cfg0.win 2).blk t).view.set ↔ ∀ a : Fin 2, win0_2.index t a * S8x1.size a ≤ (i a).val ∧ (i a).val < win0_2.index t a * S8x1.size a + S8x1.size a := by
  show i ∈ ((View.whole main_v2).slice (win0_2.rect t)).set ↔ _
  rw [View.set_slice_whole, Rect.mem_set_unit]
  exact Iff.rfl

/-- Row `r` of the array is in the block of the point `r / 8`: the eight blocks tile the 64 rows. -/
theorem cover (i : S64x1.Idx) : ∃ t : Fin cfg0.N, (cfg0.win 2).flush t = true ∧ i ∈ ((cfg0.win 2).blk t).view.set := by
  have hi0 : (i 0).val < 64 := (i 0).isLt
  have hi1 : (i 1).val < 1 := (i 1).isLt
  obtain ⟨t, ht⟩ := idx_onto ⟨(i 0).val / 8, by omega⟩
  have q0 : win0_2.index t (0 : Fin 2) = (i 0).val / 8 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 8 ≤ (i 0).val ∧ (i 0).val < win0_2.index t (0 : Fin 2) * 8 + 8; omega
  | ⟨1, _⟩ => show win0_2.index t (1 : Fin 2) * 1 ≤ (i 1).val ∧ (i 1).val < win0_2.index t (1 : Fin 2) * 1 + 1; omega

/-- The output array after the region: the 64 penalties. -/
theorem final (c : Dev nD) :
    (dats m 0 c).arrAt 2 cfg0.N = pen (m ((c : Thread nD τ).loc main_arg0)) (m ((c : Thread nD τ).loc main_arg1)) :=
  (dats m 0 c).arrAt_eq_of_cover 2 _ (fun t _ => flushed_eq m c t) cover

/-! ## After the region -/

/-- The 64 x 1 array with its unit axis dropped. -/
def flat (P : FVec Ideal S64x1 .f32) : FVec Ideal S64 .f32 := shapeCast S64 P shapeCasts_S64x1_S64

theorem flat_apply (P : FVec Ideal S64x1 .f32) (B : Fin 64) : flat P (ix1 B) = P (ix2 B 0) :=
  shapeCast_apply P _ (ix1 B) (ix2 B 0) (by
    rw [Shape.rowMajor_val_two, Shape.rowMajor_val_one]
    show B.val * 1 + 0 = B.val
    omega)

/-- From the array of penalties to the program's result: drop the unit axis, sum, divide by 64. -/
def mean (P : FVec Ideal S64x1 .f32) : FVec Ideal S_ .f32 :=
  Host.divf (Host.reduceAdd (flat P) (constant S_ .f32 0x00000000#32) reducesTo_S64_S_d0 h_S_) (constant S_ .f32 0x42800000#32)

/-- The result buffer after the lines that follow the region. -/
theorem result_eq (c : Dev nD) :
    Pipeline.afterTail₀ cfgs (dats m) 0 (V0 m) [hostOps1] c main_v5
      = mean (pen (m ((c : Thread nD τ).loc main_arg0)) (m ((c : Thread nD τ).loc main_arg1))) := by
  unfold Pipeline.afterTail₀
  show StableHlo.after hostOps1 _ (Proc.devRef .tc main_v5) = _
  after_results
  have h : Pipeline.withArrays (cfgs 0).spec c (V0 m c) (fun w => (dats m 0 c).arrAt w (cfgs 0).N) (Proc.devRef .tc main_v2)
      = pen (m ((c : Thread nD τ).loc main_arg0)) (m ((c : Thread nD τ).loc main_arg1)) :=
    (Pipeline.withArrays_arr spec0 launch0.win.arr_inj c _ _ 2).trans (final m c)
  rw [h]
  rfl

/-! ## The run, read -/

/-- Every weakly fair execution of the kernel program ends with its result at the mean of the 64 penalties
    and its two arguments unchanged. -/
theorem run : θ_run defs (onTc (τ := τ) (main (F := Ideal))) ⟨m, fun _ => 0, ρ⟩ fun r => ∀ c : Dev nD,
      r.2.mem ((c.tc : Thread nD τ).loc main_v5) = mean (pen (m ((c : Thread nD τ).loc main_arg0)) (m ((c : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v5 (Pipeline.mem_restRefs_of main_v5 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.KerValue

end
-- ==== Proof.RefOps.lean ====
/-
  The reference's host operations on the whole batch of 64 entries, read one entry at a time.

  `col y B` is entry `B`'s vector out of a 64 x 512 x 1 array and `mat Mt B` its matrix out of a
  64 x 512 x 512 array. Each lemma says that one group of the reference's operations, restricted
  to entry `B`, is the corresponding function of `PowerIter`.
-/
import proofs.«410538_j6433861009619_3_alg».proof.Proof.Gen.ReferenceIdeal
import proofs.«410538_j6433861009619_3_alg».proof.Proof.Spec
import Idealize.ShloMosaic.Lib.ValueIdx
import Idealize.ShloMosaic.Lib.Pipeline.Value
import Idealize.ShloMosaic.PureOps.Ideal.Laws

noncomputable section

namespace Cert.ReferenceIdeal.RefOps

open Idealize.ShloMosaic Cert.ReferenceIdeal Cert.ReferenceIdeal.Gen PowerIter ValueIdx

/-- The reference's clamp constant under the quotient, and the literal one. -/
abbrev clampR : EReal := Ideal.ofBits .f32 0x2B8CBCCC#32
abbrev oneLit : EReal := Ideal.ofBits .f32 0x3F800000#32

/-- Entry `B`'s vector of a 64 x 512 x 1 array. -/
def col (y : FVec Ideal S64x512x1 .f32) (B : Fin 64) : Vect := fun j => y (ix3 B j 0)
/-- Entry `B`'s matrix of a 64 x 512 x 512 array. -/
def mat (Mt : FVec Ideal S64x512x512 .f32) (B : Fin 64) : Mat := fun j k => Mt (ix3 B j k)

/-- The operand indices of the Gram product at result index `j` and contraction position `k`, axis by axis. -/
theorem lhs1_0 (j : S64x512x512.Idx) (k : dot_S64x512x784_S64x512x784_S64x512x512_2_2_1_1_0_0.contr.Idx) :
    (dot_S64x512x784_S64x512x784_S64x512x512_2_2_1_1_0_0.lhsIdx j k 0).val = (j 0).val := rfl
theorem lhs1_1 (j : S64x512x512.Idx) (k : dot_S64x512x784_S64x512x784_S64x512x512_2_2_1_1_0_0.contr.Idx) :
    (dot_S64x512x784_S64x512x784_S64x512x512_2_2_1_1_0_0.lhsIdx j k 1).val = (j 1).val := rfl
theorem lhs1_2 (j : S64x512x512.Idx) (k : dot_S64x512x784_S64x512x784_S64x512x512_2_2_1_1_0_0.contr.Idx) :
    (dot_S64x512x784_S64x512x784_S64x512x512_2_2_1_1_0_0.lhsIdx j k 2).val = (k ⟨0, by decide⟩).val := rfl
theorem rhs1_0 (j : S64x512x512.Idx) (k : dot_S64x512x784_S64x512x784_S64x512x512_2_2_1_1_0_0.contr.Idx) :
    (dot_S64x512x784_S64x512x784_S64x512x512_2_2_1_1_0_0.rhsIdx j k 0).val = (j 0).val := rfl
theorem rhs1_1 (j : S64x512x512.Idx) (k : dot_S64x512x784_S64x512x784_S64x512x512_2_2_1_1_0_0.contr.Idx) :
    (dot_S64x512x784_S64x512x784_S64x512x512_2_2_1_1_0_0.rhsIdx j k 1).val = (j 2).val := rfl
theorem rhs1_2 (j : S64x512x512.Idx) (k : dot_S64x512x784_S64x512x784_S64x512x512_2_2_1_1_0_0.contr.Idx) :
    (dot_S64x512x784_S64x512x784_S64x512x512_2_2_1_1_0_0.rhsIdx j k 2).val = (k ⟨0, by decide⟩).val := rfl

/-- The batched product of the array with its own transpose is, entry by entry, the Gram matrix. -/
theorem gram_read (a : FVec Ideal S64x512x784 .f32) (B : Fin 64) :
    mat (Host.dotGeneral dot_S64x512x784_S64x512x784_S64x512x512_2_2_1_1_0_0 none a a) B = gram (fun j d => a (ix3 B j d)) := by
  funext j k
  show Host.dotGeneral dot_S64x512x784_S64x512x784_S64x512x512_2_2_1_1_0_0 none a a (ix3 B j k)
    = ∑ d : Fin 784, a (ix3 B j d) * a (ix3 B k d)
  simp only [Host.dotGeneral]
  rw [Ideal.dotGeneral_apply,
    ← Equiv.sum_comp (contrEquiv1 dot_S64x512x784_S64x512x784_S64x512x512_2_2_1_1_0_0 784 rfl rfl).symm]
  refine Finset.sum_congr rfl fun d _ => ?_
  have hk := contrEquiv1_symm_val dot_S64x512x784_S64x512x784_S64x512x512_2_2_1_1_0_0 784 rfl rfl d
  congr 2
  · funext ax
    refine Fin.ext ?_
    match ax with
    | ⟨0, _⟩ => exact lhs1_0 _ _
    | ⟨1, _⟩ => exact lhs1_1 _ _
    | ⟨2, _⟩ => exact (lhs1_2 _ _).trans hk
  · funext ax
    refine Fin.ext ?_
    match ax with
    | ⟨0, _⟩ => exact rhs1_0 _ _
    | ⟨1, _⟩ => exact rhs1_1 _ _
    | ⟨2, _⟩ => exact (rhs1_2 _ _).trans hk

/-- The operand indices of the matrix-vector product at result index `j` and contraction position `k`, axis by axis. -/
theorem lhs2_0 (j : S64x512x1.Idx) (k : dot_S64x512x512_S64x512x1_S64x512x1_2_1_1_2_0_0.contr.Idx) :
    (dot_S64x512x512_S64x512x1_S64x512x1_2_1_1_2_0_0.lhsIdx j k 0).val = (j 0).val := rfl
theorem lhs2_1 (j : S64x512x1.Idx) (k : dot_S64x512x512_S64x512x1_S64x512x1_2_1_1_2_0_0.contr.Idx) :
    (dot_S64x512x512_S64x512x1_S64x512x1_2_1_1_2_0_0.lhsIdx j k 1).val = (j 1).val := rfl
theorem lhs2_2 (j : S64x512x1.Idx) (k : dot_S64x512x512_S64x512x1_S64x512x1_2_1_1_2_0_0.contr.Idx) :
    (dot_S64x512x512_S64x512x1_S64x512x1_2_1_1_2_0_0.lhsIdx j k 2).val = (k ⟨0, by decide⟩).val := rfl
theorem rhs2_0 (j : S64x512x1.Idx) (k : dot_S64x512x512_S64x512x1_S64x512x1_2_1_1_2_0_0.contr.Idx) :
    (dot_S64x512x512_S64x512x1_S64x512x1_2_1_1_2_0_0.rhsIdx j k 0).val = (j 0).val := rfl
theorem rhs2_1 (j : S64x512x1.Idx) (k : dot_S64x512x512_S64x512x1_S64x512x1_2_1_1_2_0_0.contr.Idx) :
    (dot_S64x512x512_S64x512x1_S64x512x1_2_1_1_2_0_0.rhsIdx j k 1).val = (k ⟨0, by decide⟩).val := rfl
theorem rhs2_2 (j : S64x512x1.Idx) (k : dot_S64x512x512_S64x512x1_S64x512x1_2_1_1_2_0_0.contr.Idx) :
    (dot_S64x512x512_S64x512x1_S64x512x1_2_1_1_2_0_0.rhsIdx j k 2).val = (j 2).val := rfl

/-- The batched matrix-vector product, at entry `B`. -/
theorem mv_read (Mt : FVec Ideal S64x512x512 .f32) (y : FVec Ideal S64x512x1 .f32) (B : Fin 64) :
    col (Host.dotGeneral dot_S64x512x512_S64x512x1_S64x512x1_2_1_1_2_0_0 none Mt y) B = mv (mat Mt B) (col y B) := by
  funext j
  show Host.dotGeneral dot_S64x512x512_S64x512x1_S64x512x1_2_1_1_2_0_0 none Mt y (ix3 B j 0)
    = ∑ k : Fin 512, Mt (ix3 B j k) * y (ix3 B k 0)
  simp only [Host.dotGeneral]
  rw [Ideal.dotGeneral_apply,
    ← Equiv.sum_comp (contrEquiv1 dot_S64x512x512_S64x512x1_S64x512x1_2_1_1_2_0_0 512 rfl rfl).symm]
  refine Finset.sum_congr rfl fun d _ => ?_
  have hk := contrEquiv1_symm_val dot_S64x512x512_S64x512x1_S64x512x1_2_1_1_2_0_0 512 rfl rfl d
  congr 2
  · funext ax
    refine Fin.ext ?_
    match ax with
    | ⟨0, _⟩ => exact lhs2_0 _ _
    | ⟨1, _⟩ => exact lhs2_1 _ _
    | ⟨2, _⟩ => exact (lhs2_2 _ _).trans hk
  · funext ax
    refine Fin.ext ?_
    match ax with
    | ⟨0, _⟩ => exact rhs2_0 _ _
    | ⟨1, _⟩ => exact (rhs2_1 _ _).trans hk
    | ⟨2, _⟩ => exact rhs2_2 _ _

/-- A broadcast read at an index: the source at the target's coordinates on the mapped axes, `0` on a source axis of extent one. -/
theorem bc_64x1_64x1x1 {α : Type} (v : S64x1.Idx → α) (B : Fin 64) (p q : Fin 1) :
    broadcastInDim S64x1x1 ![0, 2] bcast_S64x1_S64x1x1_0_2 v (ix3 B p q) = v (ix2 B 0) := by
  unfold broadcastInDim
  congr 1
  funext a
  match a with
  | ⟨0, _⟩ => rfl
  | ⟨1, _⟩ => rfl
theorem bc_scalar_64x1x1 {α : Type} (v : S_.Idx → α) (i : S64x1x1.Idx) :
    broadcastInDim S64x1x1 ![] bcast_S_S64x1x1 v i = v ix0 := by
  unfold broadcastInDim
  congr 1
  funext a
  exact a.elim0
theorem bc_64x1x1_64x512x1 {α : Type} (v : S64x1x1.Idx → α) (B : Fin 64) (j : Fin 512) (c : Fin 1) :
    broadcastInDim S64x512x1 ![0, 1, 2] bcast_S64x1x1_S64x512x1_0_1_2 v (ix3 B j c) = v (ix3 B 0 0) := by
  unfold broadcastInDim
  congr 1
  funext a
  match a with
  | ⟨0, _⟩ => rfl
  | ⟨1, _⟩ => rfl
  | ⟨2, _⟩ => rfl

/-- The sum over the middle axis, at entry `B`. -/
theorem rsum_read (w : FVec Ideal S64x512x1 .f32) (B : Fin 64) (c : Fin 1) :
    Host.reduceAdd w (constant S_ .f32 0x00000000#32) reducesTo_S64x512x1_S64x1_d1 h_S_ (ix2 B c) = ∑ j : Fin 512, w (ix3 B j 0) := by
  have h : S64x512x1.Reduces [1] S64x1 := by decide
  show Ideal.hostReduceAdd reducesTo_S64x512x1_S64x1_d1 w (Ideal.ofBits .f32 0x00000000#32) (ix2 B c) = _
  rw [Ideal.hostReduceAdd_single reducesTo_S64x512x1_S64x1_d1 h, Ideal.ofBits_zero_f32, zero_add]
  refine Finset.sum_congr rfl fun k _ => ?_
  congr 1
  funext a
  refine Fin.ext ?_
  match a with
  | ⟨0, _⟩ => rfl
  | ⟨1, _⟩ => rfl
  | ⟨2, _⟩ => exact congrArg Fin.val (Subsingleton.elim (α := Fin 1) _ _)

/-- The reference's normalization of the batch, at entry `B`. -/
theorem norm_read (y : FVec Ideal S64x512x1 .f32) (B : Fin 64) :
    col (Host.divf y (broadcastInDim S64x512x1 ![0, 1, 2] bcast_S64x1x1_S64x512x1_0_1_2 (maximumf (Host.sqrt (broadcastInDim S64x1x1 ![0, 2] bcast_S64x1_S64x1x1_0_2 (Host.reduceAdd (mulf y y) (constant S_ .f32 0x00000000#32) reducesTo_S64x512x1_S64x1_d1 h_S_))) (broadcastInDim S64x1x1 ![] bcast_S_S64x1x1 (constant S_ .f32 0x2B8CBCCC#32))))) B
      = normR clampR (col y B) := by
  funext j
  show Ideal.div (y (ix3 B j 0)) (broadcastInDim S64x512x1 ![0, 1, 2] bcast_S64x1x1_S64x512x1_0_1_2 (maximumf (Host.sqrt (broadcastInDim S64x1x1 ![0, 2] bcast_S64x1_S64x1x1_0_2 (Host.reduceAdd (mulf y y) (constant S_ .f32 0x00000000#32) reducesTo_S64x512x1_S64x1_d1 h_S_))) (broadcastInDim S64x1x1 ![] bcast_S_S64x1x1 (constant S_ .f32 0x2B8CBCCC#32))) (ix3 B j 0))
    = Ideal.div (y (ix3 B j 0)) (max (Ideal.sqrt (∑ k : Fin 512, y (ix3 B k 0) * y (ix3 B k 0))) clampR)
  rw [bc_64x1x1_64x512x1]
  show Ideal.div (y (ix3 B j 0)) (max (Ideal.sqrt (broadcastInDim S64x1x1 ![0, 2] bcast_S64x1_S64x1x1_0_2 (Host.reduceAdd (mulf y y) (constant S_ .f32 0x00000000#32) reducesTo_S64x512x1_S64x1_d1 h_S_) (ix3 B 0 0))) (broadcastInDim S64x1x1 ![] bcast_S_S64x1x1 (constant (F := Ideal) S_ .f32 0x2B8CBCCC#32) (ix3 B 0 0))) = _
  rw [bc_64x1_64x1x1, bc_scalar_64x1x1, rsum_read]
  rfl

/-- The sum over the two trailing axes, at entry `B`. -/
theorem sum_read (z : FVec Ideal S64x512x1 .f32) (B : Fin 64) :
    Host.reduceAdd z (constant S_ .f32 0x00000000#32) reducesTo_S64x512x1_S64_d1_2 h_S_ (ix1 B) = ∑ j : Fin 512, z (ix3 B j 0) := by
  show Ideal.hostReduceAdd reducesTo_S64x512x1_S64_d1_2 z (Ideal.ofBits .f32 0x00000000#32) (ix1 B) = _
  unfold Ideal.hostReduceAdd
  rw [Ideal.ofBits_zero_f32, zero_add]
  -- an index reduces to entry `B` exactly when its first coordinate is `B`
  have hdrop : ∀ i : S64x512x1.Idx, (reducesTo_S64x512x1_S64_d1_2.drop i = ix1 B) ↔ i 0 = B := by
    intro i
    constructor
    · intro h
      have := congrFun h 0
      exact Fin.ext (congrArg Fin.val this)
    · intro h
      funext b
      match b with
      | ⟨0, _⟩ => exact Fin.ext (congrArg Fin.val h)
  -- those indices are `(B, j, 0)`, `j` running over the middle axis: the last axis has extent one
  refine Finset.sum_nbij' (fun i => i 1) (fun k => ix3 B k 0) ?_ ?_ ?_ ?_ ?_
  · intro i _; exact Finset.mem_univ _
  · intro k _; exact Finset.mem_filter.2 ⟨Finset.mem_univ _, (hdrop _).2 rfl⟩
  · intro i hi
    have h0 := (hdrop i).1 (Finset.mem_filter.1 hi).2
    funext c
    match c with
    | ⟨0, _⟩ => exact h0.symm
    | ⟨1, _⟩ => rfl
    | ⟨2, _⟩ => exact Subsingleton.elim (α := Fin 1) _ _
  · intro k _; rfl
  · intro i hi
    have h0 := (hdrop i).1 (Finset.mem_filter.1 hi).2
    congr 1
    funext c
    match c with
    | ⟨0, _⟩ => exact h0
    | ⟨1, _⟩ => rfl
    | ⟨2, _⟩ => exact Subsingleton.elim (α := Fin 1) _ _

theorem bc_64_64x1x1 {α : Type} (v : S64.Idx → α) (B : Fin 64) (p q : Fin 1) :
    broadcastInDim S64x1x1 ![0] bcast_S64_S64x1x1_0 v (ix3 B p q) = v (ix1 B) := by
  unfold broadcastInDim
  congr 1
  funext a
  match a with
  | ⟨0, _⟩ => rfl
theorem bc_64x1x1_64x512x512 {α : Type} (v : S64x1x1.Idx → α) (B : Fin 64) (j k : Fin 512) :
    broadcastInDim S64x512x512 ![0, 1, 2] bcast_S64x1x1_S64x512x512_0_1_2 v (ix3 B j k) = v (ix3 B 0 0) := by
  unfold broadcastInDim
  congr 1
  funext a
  match a with
  | ⟨0, _⟩ => rfl
  | ⟨1, _⟩ => rfl
  | ⟨2, _⟩ => rfl
theorem bc_1x512x512_64x512x512 {α : Type} (v : S1x512x512.Idx → α) (B : Fin 64) (j k : Fin 512) :
    broadcastInDim S64x512x512 ![0, 1, 2] bcast_S1x512x512_S64x512x512_0_1_2 v (ix3 B j k) = v (ix3 0 j k) := by
  unfold broadcastInDim
  congr 1
  funext a
  match a with
  | ⟨0, _⟩ => rfl
  | ⟨1, _⟩ => rfl
  | ⟨2, _⟩ => rfl
theorem bc_512x512_1x512x512 {α : Type} (v : S512x512.Idx → α) (z : Fin 1) (j k : Fin 512) :
    broadcastInDim S1x512x512 ![1, 2] bcast_S512x512_S1x512x512_1_2 v (ix3 z j k) = v (ix2 j k) := by
  unfold broadcastInDim
  congr 1
  funext a
  match a with
  | ⟨0, _⟩ => rfl
  | ⟨1, _⟩ => rfl
theorem bc_scalar_512x512 {α : Type} (v : S_.Idx → α) (i : S512x512.Idx) :
    broadcastInDim S512x512 ![] bcast_S_S512x512 v i = v ix0 := by
  unfold broadcastInDim
  congr 1
  funext a
  exact a.elim0

/-- Two row/column counters compared and converted: the identity matrix's entry. -/
theorem eye_read (j k : Fin 512) :
    (uitofp (F := Ideal) .f32 (cmpi .eq (addi (iotaInDim S512x512 32 0) (broadcastInDim S512x512 ![] bcast_S_S512x512 (constantI S_ 32 0#32))) (iotaInDim S512x512 32 1))) (ix2 j k) = delta j k := by
  show (((IntOp.cmpi .eq (IntOp.addi (BitVec.ofNat 32 j.val) (broadcastInDim S512x512 ![] bcast_S_S512x512 (constantI S_ 32 0#32) (ix2 j k))) (BitVec.ofNat 32 k.val)).toNat : ℝ) : EReal) = delta j k
  rw [bc_scalar_512x512]
  show (((IntOp.cmpi .eq (BitVec.ofNat 32 j.val + 0#32) (BitVec.ofNat 32 k.val)).toNat : ℝ) : EReal) = _
  rw [BitVec.add_zero]
  unfold delta IntOp.cmpi
  by_cases h : j = k
  · subst h; simp
  · have hne : ¬ BitVec.ofNat 32 j.val = BitVec.ofNat 32 k.val := by
      intro e
      have e' := congrArg BitVec.toNat e
      simp only [BitVec.toNat_ofNat] at e'
      apply h; apply Fin.ext
      have := j.isLt; have := k.isLt
      omega
    simp [h, hne]

/-- The matrix minus the per-entry scalar times the identity (built from two iotas compared), at entry `B`. -/
theorem shift_read (Mt : FVec Ideal S64x512x512 .f32) (L : FVec Ideal S64 .f32) (B : Fin 64) :
    mat (subf Mt (mulf (broadcastInDim S64x512x512 ![0, 1, 2] bcast_S64x1x1_S64x512x512_0_1_2 (broadcastInDim S64x1x1 ![0] bcast_S64_S64x1x1_0 L)) (broadcastInDim S64x512x512 ![0, 1, 2] bcast_S1x512x512_S64x512x512_0_1_2 (broadcastInDim S1x512x512 ![1, 2] bcast_S512x512_S1x512x512_1_2 (uitofp .f32 (cmpi .eq (addi (iotaInDim S512x512 32 0) (broadcastInDim S512x512 ![] bcast_S_S512x512 (constantI S_ 32 0#32))) (iotaInDim S512x512 32 1))))))) B
      = shiftMat (mat Mt B) (L (ix1 B)) := by
  funext j k
  show Mt (ix3 B j k) - (broadcastInDim S64x512x512 ![0, 1, 2] bcast_S64x1x1_S64x512x512_0_1_2 (broadcastInDim S64x1x1 ![0] bcast_S64_S64x1x1_0 L) (ix3 B j k)) * (broadcastInDim S64x512x512 ![0, 1, 2] bcast_S1x512x512_S64x512x512_0_1_2 (broadcastInDim S1x512x512 ![1, 2] bcast_S512x512_S1x512x512_1_2 (uitofp (F := Ideal) .f32 (cmpi .eq (addi (iotaInDim S512x512 32 0) (broadcastInDim S512x512 ![] bcast_S_S512x512 (constantI S_ 32 0#32))) (iotaInDim S512x512 32 1)))) (ix3 B j k))
    = Mt (ix3 B j k) - L (ix1 B) * delta j k
  rw [bc_64x1x1_64x512x512, bc_64_64x1x1, bc_1x512x512_64x512x512, bc_512x512_1x512x512, eye_read]

end Cert.ReferenceIdeal.RefOps

end
-- ==== Proof.RefValue.lean ====
/-
  What the reference's run holds for one batch entry: the entry's penalty as the reference
  computes it, `PowerIter.penaltyR` of the entry's rows of the two arguments.
-/
import proofs.«410538_j6433861009619_3_alg».proof.Proof.Gen.ReferenceIdeal.Run
import proofs.«410538_j6433861009619_3_alg».proof.Proof.RefOps
import Idealize.ShloMosaic.Lib.IdealHost

noncomputable section

namespace Cert.ReferenceIdeal.RefValue

open Idealize.ShloMosaic Idealize.ShloMosaic.StableHlo Cert.ReferenceIdeal Cert.ReferenceIdeal.Gen Cert.ReferenceIdeal.RefOps PowerIter ValueIdx

/-! ## Groups of operations on arbitrary arrays, at entry `B` -/

/-- One step of the iteration: normalize, then multiply by the matrix. -/
theorem step_read (Mt : FVec Ideal S64x512x512 .f32) (y : FVec Ideal S64x512x1 .f32) (B : Fin 64) :
    col (Host.dotGeneral dot_S64x512x512_S64x512x1_S64x512x1_2_1_1_2_0_0 none Mt (Host.divf y (broadcastInDim S64x512x1 ![0, 1, 2] bcast_S64x1x1_S64x512x1_0_1_2 (maximumf (Host.sqrt (broadcastInDim S64x1x1 ![0, 2] bcast_S64x1_S64x1x1_0_2 (Host.reduceAdd (mulf y y) (constant S_ .f32 0x00000000#32) reducesTo_S64x512x1_S64x1_d1 h_S_))) (broadcastInDim S64x1x1 ![] bcast_S_S64x1x1 (constant S_ .f32 0x2B8CBCCC#32)))))) B
      = mv (mat Mt B) (normR clampR (col y B)) := by
  rw [mv_read, norm_read]

/-- The quotient of the two sums `Σ (M y)ⱼ yⱼ` and `Σ yⱼ yⱼ` is the Rayleigh quotient. -/
theorem ray_read (Mt : FVec Ideal S64x512x512 .f32) (y : FVec Ideal S64x512x1 .f32) (B : Fin 64) :
    Host.divf (Host.reduceAdd (mulf (Host.dotGeneral dot_S64x512x512_S64x512x1_S64x512x1_2_1_1_2_0_0 none Mt y) y) (constant S_ .f32 0x00000000#32) reducesTo_S64x512x1_S64_d1_2 h_S_) (Host.reduceAdd (mulf y y) (constant S_ .f32 0x00000000#32) reducesTo_S64x512x1_S64_d1_2 h_S_) (ix1 B)
      = ray (mat Mt B) (col y B) := by
  rw [hostDivf_apply, sum_read, sum_read]
  unfold ray dotp PowerIter.sq
  congr 1
  refine Finset.sum_congr rfl fun j _ => ?_
  rw [mulf_apply]
  exact congrArg (· * y (ix3 B j 0)) (congrFun (mv_read Mt y B) j)

/-- The last scalar steps: `L / (T + L)` minus the literal one. -/
theorem tail_read (L T : FVec Ideal S64 .f32) (B : Fin 64) :
    subf (Host.divf L (addf T L)) (broadcastInDim S64 ![] bcast_S_S64 (constant S_ .f32 0x3F800000#32)) (ix1 B)
      = Ideal.div (L (ix1 B)) (T (ix1 B) + L (ix1 B)) - oneLit := by
  rw [subf_apply, hostDivf_apply, addf_apply, broadcastInDim_scalar_apply, constant_apply]

/-! ## The run's named terms, at entry `B` -/

variable (V0 : Valuation τ sig (Elt Ideal)) (B : Fin 64)

/-- Entry `B`'s rows of the first argument, flattened to 512 x 784. -/
abbrev rowsOf : Fin 512 → Fin 784 → EReal := fun j d => Value.res_main_v0 (F := Ideal) V0 (ix3 B j d)

/-- Entry `B`'s starting vector. -/
abbrev startOf : Vect := fun j => (V0 (Proc.devRef .tc main_arg1) : FVec Ideal S64x512x1 .f32) (ix3 B j 0)

/-- The batch of Gram matrices. -/
theorem v1_read : mat (Value.res_main_v1 (F := Ideal) V0) B = gram (rowsOf V0 B) := by
  unfold Value.res_main_v1
  exact gram_read _ B

/-- The first product: the matrix times the normalized starting vector. -/
theorem v10_read : col (Value.res_main_v10 (F := Ideal) V0) B
    = mv (gram (rowsOf V0 B)) (normR clampR (startOf V0 B)) := by
  unfold Value.res_main_v10
  rw [step_read, v1_read]
  rfl

/-- The second product. -/
theorem v19_read : col (Value.res_main_v19 (F := Ideal) V0) B
    = mv (gram (rowsOf V0 B)) (normR clampR (col (Value.res_main_v10 (F := Ideal) V0) B)) := by
  unfold Value.res_main_v19
  rw [step_read, v1_read]

/-- The third product. -/
theorem v28_read : col (Value.res_main_v28 (F := Ideal) V0) B
    = mv (gram (rowsOf V0 B)) (normR clampR (col (Value.res_main_v19 (F := Ideal) V0) B)) := by
  unfold Value.res_main_v28
  rw [step_read, v1_read]

/-- The fourth product. -/
theorem v37_read : col (Value.res_main_v37 (F := Ideal) V0) B
    = mv (gram (rowsOf V0 B)) (normR clampR (col (Value.res_main_v28 (F := Ideal) V0) B)) := by
  unfold Value.res_main_v37
  rw [step_read, v1_read]

/-- The iterate `x₁`: the fifth normalization. -/
theorem v45_read : col (Value.res_main_v45 (F := Ideal) V0) B
    = iterR clampR (gram (rowsOf V0 B)) (startOf V0 B) := by
  unfold Value.res_main_v45
  rw [norm_read, v37_read, v28_read, v19_read, v10_read]
  rfl

/-- The dominant-eigenvalue estimate. -/
theorem v51_read : Value.res_main_v51 (F := Ideal) V0 (ix1 B)
    = largestR clampR (gram (rowsOf V0 B)) (startOf V0 B) := by
  unfold Value.res_main_v51
  rw [ray_read, v1_read, v45_read]
  rfl

/-- The shifted matrix. -/
theorem v63_read : mat (Value.res_main_v63 (F := Ideal) V0) B
    = shiftMat (gram (rowsOf V0 B)) (largestR clampR (gram (rowsOf V0 B)) (startOf V0 B)) := by
  unfold Value.res_main_v63
  rw [shift_read, v1_read, v51_read]

/-- The shifted matrix times `x₁`. -/
theorem v64_read : col (Value.res_main_v64 (F := Ideal) V0) B
    = mv (shiftMat (gram (rowsOf V0 B)) (largestR clampR (gram (rowsOf V0 B)) (startOf V0 B)))
        (iterR clampR (gram (rowsOf V0 B)) (startOf V0 B)) := by
  unfold Value.res_main_v64
  rw [mv_read, v63_read, v45_read]

/-- The iterate `x₂` of the shifted problem. -/
theorem v72_read : col (Value.res_main_v72 (F := Ideal) V0) B
    = secondR clampR (gram (rowsOf V0 B)) (startOf V0 B) := by
  unfold Value.res_main_v72
  rw [norm_read, v64_read]
  rfl

/-- The quotient `largest / (tmp + largest)` minus one. -/
theorem v82_read : Value.res_main_v82 (F := Ideal) V0 (ix1 B)
    = Ideal.div (largestR clampR (gram (rowsOf V0 B)) (startOf V0 B))
        (tmpR clampR (gram (rowsOf V0 B)) (startOf V0 B) + largestR clampR (gram (rowsOf V0 B)) (startOf V0 B)) - oneLit := by
  unfold Value.res_main_v82
  rw [tail_read, ray_read, v63_read, v72_read, v51_read]
  rfl

/-- The array of 64 penalties the reference sums, at entry `B`. -/
theorem penalty_read (V0 : Valuation τ sig (Elt Ideal)) (B : Fin 64) :
    (mulf (broadcastInDim S64 ![] bcast_S_S64 (constant (F := Ideal) S_ .f32 0x3F800000#32)) (mulf (Value.res_main_v82 (F := Ideal) V0) (Value.res_main_v82 (F := Ideal) V0)) : FVec Ideal S64 .f32) (ix1 B)
      = penaltyR clampR oneLit (fun j d => Value.res_main_v0 (F := Ideal) V0 (ix3 B j d))
          (fun j => (V0 (Proc.devRef .tc main_arg1) : FVec Ideal S64x512x1 .f32) (ix3 B j 0)) := by
  rw [mulf_apply, mulf_apply, broadcastInDim_scalar_apply, constant_apply, v82_read]
  rfl

end Cert.ReferenceIdeal.RefValue

end
-- ==== Proof.ScaleBasic.lean ====
/-
  Real vectors, and the relation "the kernel's vector is a positive multiple of the reference's".

  On real (finite) data every stage of the two power iterations keeps this relation: a product
  by a real matrix is linear, and both normalizations multiply a vector by a positive real —
  whatever the two clamp constants are, as long as they are positive.
-/
import proofs.«410538_j6433861009619_3_alg».proof.Proof.Spec

noncomputable section

namespace PowerIter

open Idealize.ShloMosaic

/-- A real vector as a vector of extended reals. -/
def ofReal (r : Fin 512 → ℝ) : Vect := fun j => (r j : EReal)

/-- Every entry of the matrix is a real number. -/
def MatReal (M : Mat) : Prop := ∀ j k, ∃ r : ℝ, M j k = (r : EReal)

/-- `xR` is a real vector and `xK` a positive real multiple of it. -/
def Rel (xK xR : Vect) : Prop :=
  ∃ (s : ℝ) (r : Fin 512 → ℝ), 0 < s ∧ xR = ofReal r ∧ xK = ofReal (fun j => s * r j)

/-- A finite sum of reals, coerced, is the sum of the coercions. -/
theorem coe_sum {ι : Type} (t : Finset ι) (f : ι → ℝ) : ((∑ i ∈ t, f i : ℝ) : EReal) = ∑ i ∈ t, (f i : EReal) := by
  classical
  induction t using Finset.induction_on with
  | empty => simp
  | insert a s ha ih => rw [Finset.sum_insert ha, Finset.sum_insert ha, EReal.coe_add, ih]

/-- The coercion is monotone, so it commutes with the maximum of two reals. -/
private theorem coe_max_real (a b : ℝ) : ((max a b : ℝ) : EReal) = max (a : EReal) (b : EReal) :=
  EReal.coe_strictMono.monotone.map_max

theorem sq_ofReal (r : Fin 512 → ℝ) : sq (ofReal r) = ((∑ j, r j * r j : ℝ) : EReal) := by
  unfold sq ofReal
  rw [coe_sum]
  refine Finset.sum_congr rfl fun j _ => ?_
  rw [EReal.coe_mul]

theorem dotp_ofReal (r q : Fin 512 → ℝ) : dotp (ofReal r) (ofReal q) = ((∑ j, r j * q j : ℝ) : EReal) := by
  unfold dotp ofReal
  rw [coe_sum]
  refine Finset.sum_congr rfl fun j _ => ?_
  rw [EReal.coe_mul]

/-- A real matrix as a function into the reals (chosen entrywise). -/
def MatReal.toReal {M : Mat} (hM : MatReal M) : Fin 512 → Fin 512 → ℝ := fun j k => (hM j k).choose

theorem MatReal.eq {M : Mat} (hM : MatReal M) (j k : Fin 512) : M j k = ((hM.toReal j k : ℝ) : EReal) :=
  (hM j k).choose_spec

theorem mv_ofReal {M : Mat} (hM : MatReal M) (r : Fin 512 → ℝ) :
    mv M (ofReal r) = ofReal (fun j => ∑ k, hM.toReal j k * r k) := by
  funext j
  unfold mv ofReal
  rw [coe_sum]
  refine Finset.sum_congr rfl fun k _ => ?_
  rw [EReal.coe_mul, ← hM.eq j k]

/-- The Gram matrix of a real array is real. -/
theorem gram_real (a : Fin 512 → Fin 784 → EReal) (ha : ∀ j d, ∃ r : ℝ, a j d = (r : EReal)) : MatReal (gram a) := by
  choose r hr using ha
  intro j k
  refine ⟨∑ d, r j d * r k d, ?_⟩
  unfold gram
  rw [coe_sum]
  refine Finset.sum_congr rfl fun d _ => ?_
  rw [hr j d, hr k d, EReal.coe_mul]

/-- A real vector is related to itself (factor one). -/
theorem rel_refl (u : Vect) (hu : ∀ j, ∃ r : ℝ, u j = (r : EReal)) : Rel u u := by
  choose r hr using hu
  have hur : u = ofReal r := funext hr
  refine ⟨1, r, one_pos, hur, ?_⟩
  rw [hur]
  congr 1
  funext j
  rw [one_mul]

/-- Products by a real matrix keep the relation (same factor). -/
theorem rel_mv {M : Mat} (hM : MatReal M) {xK xR : Vect} (h : Rel xK xR) : Rel (mv M xK) (mv M xR) := by
  obtain ⟨s, r, hs, rfl, rfl⟩ := h
  refine ⟨s, fun j => ∑ k, hM.toReal j k * r k, hs, mv_ofReal hM r, ?_⟩
  rw [mv_ofReal hM]
  congr 1
  funext j
  rw [Finset.mul_sum]
  exact Finset.sum_congr rfl fun k _ => by ring

/-- The two normalizations keep the relation: each multiplies by a positive real. -/
theorem rel_norm {c e : EReal} (hc : ∃ r : ℝ, 0 < r ∧ c = (r : EReal)) (he : ∃ r : ℝ, 0 < r ∧ e = (r : EReal))
    {xK xR : Vect} (h : Rel xK xR) : Rel (normK c xK) (normR e xR) := by
  obtain ⟨c', hc', rfl⟩ := hc
  obtain ⟨e', he', rfl⟩ := he
  obtain ⟨s, r, hs, rfl, rfl⟩ := h
  -- β is the squared norm of the reference's vector; the kernel's is s²·β
  obtain ⟨β, hβ⟩ : ∃ β : ℝ, β = ∑ j, r j * r j := ⟨_, rfl⟩
  have hβ0 : 0 ≤ β := hβ ▸ Finset.sum_nonneg fun j _ => mul_self_nonneg _
  have hsqR : sq (ofReal r) = (β : EReal) := by rw [sq_ofReal, hβ]
  have hsqK : sq (ofReal fun j => s * r j) = ((s * s * β : ℝ) : EReal) := by
    rw [sq_ofReal, hβ, Finset.mul_sum]
    congr 1
    exact Finset.sum_congr rfl fun j _ => by ring
  -- the two clamped quantities are positive reals
  obtain ⟨q, hq⟩ : ∃ q : ℝ, q = max (s * s * β) c' := ⟨_, rfl⟩
  have hq0 : 0 < q := hq ▸ lt_max_of_lt_right hc'
  obtain ⟨p, hp⟩ : ∃ p : ℝ, p = max (Real.sqrt β) e' := ⟨_, rfl⟩
  have hp0 : 0 < p := hp ▸ lt_max_of_lt_right he'
  have hK : normK (c' : EReal) (ofReal fun j => s * r j)
      = ofReal (fun j => (s * r j) * (Real.sqrt q)⁻¹) := by
    funext j
    unfold normK
    rw [hsqK, ← coe_max_real, ← hq, Ideal.rsqrt_coe, if_neg (not_lt.2 hq0.le), if_neg hq0.ne']
    simp only [ofReal]
    exact (EReal.coe_mul _ _).symm
  have hR : normR (e' : EReal) (ofReal r) = ofReal (fun j => r j * (1 / p)) := by
    funext j
    unfold normR
    rw [hsqR, Ideal.sqrt_coe, if_neg (not_lt.2 hβ0), ← coe_max_real, ← hp, Ideal.div_coe hp0.ne']
    simp only [ofReal]
    exact (EReal.coe_mul _ _).symm
  have hsq : 0 < Real.sqrt q := Real.sqrt_pos.2 hq0
  refine ⟨s * p * (Real.sqrt q)⁻¹, fun j => r j * (1 / p), by positivity, hR, ?_⟩
  rw [hK]
  congr 1
  funext j
  field_simp

end PowerIter

end
-- ==== Proof.ScaleMath.lean ====
/-
  The two programs' penalties agree on real data.

  The Rayleigh quotient does not change when its vector is multiplied by a positive real, at the
  corner `0 / 0` included; and applying the shift to the vector or to the matrix gives related
  vectors. So the two quotients, and with them the penalty, are the same extended reals.
-/
import proofs.«410538_j6433861009619_3_alg».proof.Proof.ScaleBasic

noncomputable section

namespace PowerIter

open Idealize.ShloMosaic

/-- A quotient of two reals does not change when both are multiplied by the same positive real;
    this holds at a zero denominator too, where the quotient is the infinity of the numerator's
    sign (and `⊥` at `0 / 0`), because a positive factor keeps signs and zeros. -/
theorem ediv_scale_pos (t α β : ℝ) (ht : 0 < t) :
    Ideal.div ((t * α : ℝ) : EReal) ((t * β : ℝ) : EReal) = Ideal.div (α : EReal) (β : EReal) := by
  unfold Ideal.div
  by_cases hβ : β = 0
  · subst hβ
    have hpos : (0 < ((t * α : ℝ) : EReal)) ↔ (0 < (α : EReal)) := by
      rw [EReal.coe_pos, EReal.coe_pos]; exact mul_pos_iff_of_pos_left ht
    simp only [mul_zero, EReal.coe_zero, if_true, hpos]
  · have h1 : ((t * β : ℝ) : EReal) ≠ 0 := by
      rw [Ne, EReal.coe_eq_zero]; exact mul_ne_zero ht.ne' hβ
    have h2 : (β : EReal) ≠ 0 := by rw [Ne, EReal.coe_eq_zero]; exact hβ
    rw [if_neg h1, if_neg h2, ← EReal.coe_inv, ← EReal.coe_inv, ← EReal.coe_mul, ← EReal.coe_mul]
    congr 1
    field_simp

/-- The quotient `⟨y, x⟩ / ⟨x, x⟩` is the same for real vectors `(w, r)` and for `(s w, s r)`, `s > 0`:
    numerator and denominator are both multiplied by `s²`. -/
theorem rayQuot_scale (s : ℝ) (hs : 0 < s) (w r : Fin 512 → ℝ) :
    Ideal.div (dotp (ofReal fun j => s * w j) (ofReal fun j => s * r j)) (sq (ofReal fun j => s * r j))
      = Ideal.div (dotp (ofReal w) (ofReal r)) (sq (ofReal r)) := by
  rw [dotp_ofReal, sq_ofReal, dotp_ofReal, sq_ofReal]
  have h1 : (∑ j, (s * w j) * (s * r j)) = (s * s) * ∑ j, w j * r j := by
    rw [Finset.mul_sum]; exact Finset.sum_congr rfl (fun j _ => by ring)
  have h2 : (∑ j, (s * r j) * (s * r j)) = (s * s) * ∑ j, r j * r j := by
    rw [Finset.mul_sum]; exact Finset.sum_congr rfl (fun j _ => by ring)
  rw [h1, h2]
  exact ediv_scale_pos (s * s) _ _ (mul_pos hs hs)

/-- The quotient `⟨y, x⟩ / ⟨x, x⟩` of real vectors is a real number, unless `x` is the zero vector. -/
theorem rayQuot_real (w r : Fin 512 → ℝ) :
    (∃ l : ℝ, Ideal.div (dotp (ofReal w) (ofReal r)) (sq (ofReal r)) = (l : EReal)) ∨ r = fun _ => 0 := by
  rw [dotp_ofReal, sq_ofReal]
  by_cases hβ : (∑ j, r j * r j) = 0
  · right
    funext j
    have h := (Finset.sum_eq_zero_iff_of_nonneg (fun j _ => mul_self_nonneg (r j))).1 hβ j (Finset.mem_univ j)
    exact mul_self_eq_zero.1 h
  · left
    refine ⟨(∑ j, w j * r j) * (∑ j, r j * r j)⁻¹, ?_⟩
    unfold Ideal.div
    rw [if_neg (by rw [EReal.coe_eq_zero]; exact hβ), ← EReal.coe_inv, ← EReal.coe_mul]

/-- Two real vectors that agree as vectors of extended reals agree. -/
theorem vect_ofReal_cancel {p q : Fin 512 → ℝ} (h : ofReal p = ofReal q) : p = q := by
  funext j
  exact EReal.coe_injective (congrFun h j)

/-- A real matrix times `s r` is `s` times the matrix times `r`. -/
theorem mv_ofReal_smul {M : Mat} (hM : MatReal M) (s : ℝ) (r : Fin 512 → ℝ) :
    mv M (ofReal fun j => s * r j) = ofReal (fun j => s * ∑ k, hM.toReal j k * r k) := by
  rw [mv_ofReal hM]
  congr 1
  funext j
  rw [Finset.mul_sum]
  exact Finset.sum_congr rfl (fun k _ => by ring)

/-- The Rayleigh quotient of a real matrix is the same at `s r` and at `r`, for `s > 0`. -/
theorem ray_ofReal_smul {M : Mat} (hM : MatReal M) (s : ℝ) (hs : 0 < s) (r : Fin 512 → ℝ) :
    ray M (ofReal fun j => s * r j) = ray M (ofReal r) := by
  unfold ray
  rw [mv_ofReal_smul hM, mv_ofReal hM]
  exact rayQuot_scale s hs _ r

/-- The Rayleigh quotient of a real matrix at a real vector is real, unless the vector is zero. -/
theorem ray_ofReal_real {M : Mat} (hM : MatReal M) (r : Fin 512 → ℝ) :
    (∃ l : ℝ, ray M (ofReal r) = (l : EReal)) ∨ r = fun _ => 0 := by
  unfold ray
  rw [mv_ofReal hM]
  exact rayQuot_real _ r

/-- The reference's normalization sends the zero vector to itself: the clamped norm is `e > 0`,
    and `0 / e = 0`. -/
theorem normR_ofReal_zero {e : EReal} (he : ∃ r : ℝ, 0 < r ∧ e = (r : EReal)) :
    normR e (ofReal fun _ => 0) = ofReal fun _ => 0 := by
  obtain ⟨e', he', rfl⟩ := he
  funext j
  unfold normR
  rw [sq_ofReal]
  have h0 : (∑ _j : Fin 512, (0 : ℝ) * 0) = 0 := by simp
  rw [h0, Ideal.sqrt_coe, if_neg (lt_irrefl 0), Real.sqrt_zero,
    max_eq_right (by exact_mod_cast he'.le), Ideal.div_coe he'.ne']
  simp [ofReal]

/-- The two shifted products at related real vectors `s r` and `r`. When the shift `L` is real
    both are real vectors, the kernel's `s` times the reference's: the shifted matrix's row `j`
    applied to `r` is `(M r) j - L · r j`. When `r` is the zero vector both are the zero vector,
    whatever `L` is, since every product has a zero factor. -/
theorem shift_pair_ofReal {M : Mat} (hM : MatReal M) (s : ℝ) (r : Fin 512 → ℝ) (L : EReal)
    (hL : (∃ l : ℝ, L = (l : EReal)) ∨ r = fun _ => 0) :
    ∃ w : Fin 512 → ℝ, shiftVec M L (ofReal fun j => s * r j) = ofReal (fun j => s * w j) ∧
      mv (shiftMat M L) (ofReal r) = ofReal w ∧ (r = (fun _ => 0) → w = fun _ => 0) := by
  rcases hL with ⟨l, rfl⟩ | rfl
  · refine ⟨fun j => (∑ k, hM.toReal j k * r k) - l * r j, ?_, ?_, ?_⟩
    · funext j
      unfold shiftVec
      rw [mv_ofReal_smul hM]
      show ((s * ∑ k, hM.toReal j k * r k : ℝ) : EReal) - (l : EReal) * ((s * r j : ℝ) : EReal)
        = ((s * ((∑ k, hM.toReal j k * r k) - l * r j) : ℝ) : EReal)
      rw [← EReal.coe_mul, ← EReal.coe_sub]
      congr 1
      ring
    · funext j
      show ∑ k, (M j k - (l : EReal) * delta j k) * ((r k : ℝ) : EReal)
        = (((∑ k, hM.toReal j k * r k) - l * r j : ℝ) : EReal)
      have hterm : ∀ k, (M j k - (l : EReal) * delta j k) * ((r k : ℝ) : EReal)
          = (((hM.toReal j k - l * (if j = k then 1 else 0)) * r k : ℝ) : EReal) := by
        intro k
        have hd : delta j k = (((if j = k then 1 else 0 : ℝ)) : EReal) := by
          unfold delta; split_ifs <;> simp
        rw [hM.eq j k, hd, ← EReal.coe_mul, ← EReal.coe_sub, ← EReal.coe_mul]
      rw [Finset.sum_congr rfl (fun k _ => hterm k), ← coe_sum]
      congr 1
      simp only [sub_mul, Finset.sum_sub_distrib]
      congr 1
      simp
    · intro hr
      funext j
      simp [hr]
  · refine ⟨fun _ => 0, ?_, ?_, fun _ => rfl⟩
    · funext j
      simp [shiftVec, mv, ofReal]
    · funext j
      simp [mv, ofReal]

/-- The two iterates `x₁` are related: every normalization and every product keeps the relation. -/
theorem rel_iterK_iterR {c e : EReal} (hc : ∃ r : ℝ, 0 < r ∧ c = (r : EReal))
    (he : ∃ r : ℝ, 0 < r ∧ e = (r : EReal)) {M : Mat} (hM : MatReal M) (u : Vect)
    (hu : ∀ j, ∃ r : ℝ, u j = (r : EReal)) : Rel (iterK c M u) (iterR e M u) := by
  unfold iterK iterR
  exact rel_norm hc he (rel_mv hM (rel_norm hc he (rel_mv hM (rel_norm hc he
    (rel_mv hM (rel_norm hc he (rel_mv hM (rel_norm hc he (rel_refl u hu)))))))))

/-- One batch entry's penalty is the same for the kernel and for the reference, for any real array
    `a`, any real start `u` and any two positive real clamp constants. -/
theorem penalty_eq (c e one : EReal) (a : Fin 512 → Fin 784 → EReal) (u : Vect)
    (hc : ∃ r : ℝ, 0 < r ∧ c = (r : EReal)) (he : ∃ r : ℝ, 0 < r ∧ e = (r : EReal))
    (ha : ∀ j d, ∃ r : ℝ, a j d = (r : EReal)) (hu : ∀ j, ∃ r : ℝ, u j = (r : EReal)) :
    penaltyK c one a u = penaltyR e one a u := by
  have hM : MatReal (gram a) := gram_real a ha
  -- the iterates x₁: the kernel's is s₁ times the reference's real vector r₁
  obtain ⟨s1, r1, hs1, hR1, hK1⟩ := rel_iterK_iterR hc he hM u hu
  -- the two estimates of the largest eigenvalue agree
  have hL : largestK c (gram a) u = largestR e (gram a) u := by
    unfold largestK largestR
    rw [hK1, hR1]
    exact ray_ofReal_smul hM s1 hs1 r1
  -- and the estimate is real unless x₁ is the zero vector
  have hLreal : (∃ l : ℝ, largestR e (gram a) u = (l : EReal)) ∨ r1 = fun _ => 0 := by
    unfold largestR
    rw [hR1]
    exact ray_ofReal_real hM r1
  -- the shifted products at x₁, and the iterates x₂
  obtain ⟨w1, hw1K, hw1R, hw10⟩ := shift_pair_ofReal hM s1 r1 (largestR e (gram a) u) hLreal
  have hK2' : secondK c (gram a) u = normK c (ofReal fun j => s1 * w1 j) := by
    unfold secondK
    rw [hL, hK1, hw1K]
  have hR2' : secondR e (gram a) u = normR e (ofReal w1) := by
    unfold secondR
    rw [hR1, hw1R]
  have h2 : Rel (secondK c (gram a) u) (secondR e (gram a) u) := by
    rw [hK2', hR2']
    exact rel_norm hc he ⟨s1, w1, hs1, rfl, rfl⟩
  obtain ⟨s2, r2, hs2, hR2, hK2⟩ := h2
  -- the estimate is real unless x₂ is the zero vector
  have hL2 : (∃ l : ℝ, largestR e (gram a) u = (l : EReal)) ∨ r2 = fun _ => 0 := by
    rcases hLreal with hl | hr
    · exact Or.inl hl
    · right
      have hz : ofReal r2 = ofReal fun _ => 0 := by
        rw [← hR2, hR2', hw10 hr]
        exact normR_ofReal_zero he
      exact vect_ofReal_cancel hz
  -- the shifted products at x₂, and the two second quotients
  obtain ⟨w2, hw2K, hw2R, _⟩ := shift_pair_ofReal hM s2 r2 (largestR e (gram a) u) hL2
  have hT : tmpK c (gram a) u = tmpR e (gram a) u := by
    unfold tmpK tmpR
    rw [hL, hK2, hR2, hw2K, hw2R]
    exact rayQuot_scale s2 hs2 w2 r2
  unfold penaltyK penaltyR
  rw [hL, hT]

end PowerIter

end
-- ==== Proof.Finite.lean ====
/-
  From the precondition to real entries, and the two clamp constants as positive reals.
-/
import proofs.«410538_j6433861009619_3_alg».proof.Pre_finite_inputs
import proofs.«410538_j6433861009619_3_alg».proof.Proof.Gen.Pre_finite_inputs
import Idealize.ShloMosaic.PureOps.Ideal
import Idealize.ShloMosaic.Lib.ReduceAll
import Idealize.ShloMosaic.Lib.ValueIdx

noncomputable section

namespace Cert.Finite

open Idealize.ShloMosaic

/-- The kernel's clamp word denotes a positive real. -/
theorem clampK_pos : ∃ r : ℝ, 0 < r ∧ Ideal.ofBits .f32 0x179ABE15#32 = (r : EReal) := by
  -- sign 0, exponent field 47, fraction 0x1ABE15: the normal number (2^23 + 0x1ABE15) · 2^(47 - 127 - 23)
  exact ⟨10141205 * (2 ^ 103)⁻¹, by positivity, by simp [Ideal.ofBits, Ideal.ieee, -EReal.coe_mul]⟩

/-- The reference's clamp word denotes a positive real. -/
theorem clampR_pos : ∃ r : ℝ, 0 < r ∧ Ideal.ofBits .f32 0x2B8CBCCC#32 = (r : EReal) := by
  -- sign 0, exponent field 87, fraction 0x0CBCCC: the normal number (2^23 + 0x0CBCCC) · 2^(87 - 127 - 23)
  exact ⟨9223372 * (2 ^ 63)⁻¹, by positivity, by simp [Ideal.ofBits, Ideal.ieee, -EReal.coe_mul]⟩

/-- An extended real whose absolute value `max v (-v)` lies strictly below `+∞` is a real number:
    the absolute value of `⊤` is `⊤`, and so is that of `⊥`. -/
theorem real_of_abs_lt (v : EReal)
    (h : Ideal.cmp .olt (max v (-v)) (Ideal.ofBits .f32 0x7F800000#32) = 1#1) : ∃ r : ℝ, v = (r : EReal) := by
  have htop : Ideal.ofBits .f32 0x7F800000#32 = ⊤ := by simp [Ideal.ofBits, Ideal.ieee]
  rw [htop] at h
  induction v using EReal.rec with
  | bot => simp [Ideal.cmp] at h
  | coe r => exact ⟨r, rfl⟩
  | top => simp [Ideal.cmp] at h

/-- Under the precondition (every entry smaller than +inf in absolute value) every entry of both arguments is a real number. -/
theorem real_of_pre [Cert.Pre_finite_inputs.Facts] (A : FVec Ideal Cert.Pre_finite_inputs.S64x512x28x28 .f32) (x : FVec Ideal Cert.Pre_finite_inputs.S64x512x1 .f32)
    (h : Cert.Pre_finite_inputs.fn (F := Ideal) A x = fun _ => 1#1) :
    (∀ i, ∃ r : ℝ, A i = (r : EReal)) ∧ (∀ i, ∃ r : ℝ, x i = (r : EReal)) := by
  -- the predicate at its one index: the conjunction of the two "all entries" reductions
  have h0 := congrFun h ValueIdx.ix0
  dsimp only [Cert.Pre_finite_inputs.fn] at h0
  obtain ⟨hA, hx⟩ := IntOp.andi_eq_one.1 h0
  -- a scalar's shape has exactly one index
  haveI : Subsingleton Cert.Pre_finite_inputs.S_.Idx := ⟨fun a b => funext fun d => d.elim0⟩
  -- a conjunction over all entries that holds, holds at each entry; there it reads |entry| < +inf
  exact ⟨fun i => real_of_abs_lt _ (Host.reduce_andi_all _ _ _ _ _ hA i),
    fun i => real_of_abs_lt _ (Host.reduce_andi_all _ _ _ _ _ hx i)⟩

end Cert.Finite

end
-- ==== Proof.lean ====
/-
  The kernel and the reference compute the same mean penalty over the extended reals.

  Both programs take a batch of 64 arrays `A_B` (512 x 784 after merging the two spatial axes) and
  starting vectors `u_B`, run a short power iteration on the Gram matrix `A_B A_Bᵀ` for each entry,
  turn the two Rayleigh quotients it produces into a penalty, and return the mean of the 64
  penalties. Entry by entry the kernel's penalty is `PowerIter.penaltyK` of the entry's rows (its
  body's operations read at an index, block by block, the eight blocks tiling the output) and the
  reference's is `PowerIter.penaltyR` (its host operations read at an index). The two differ in the
  normalization — `x · rsqrt (max ‖x‖² c)` against `x / max ‖x‖ e` — and in where the eigenvalue
  shift is applied; on finite inputs each kernel iterate is a positive multiple of the reference's,
  the Rayleigh quotients do not see that factor, and so the penalties are equal
  (`PowerIter.penalty_eq`), whatever the two positive clamp constants are. The sum over the batch and
  the division by 64 are the same operations on both sides.
-/
import proofs.«410538_j6433861009619_3_alg».proof.Defs
import proofs.«410538_j6433861009619_3_alg».proof.Proof.Gen.Kernel
import proofs.«410538_j6433861009619_3_alg».proof.Proof.Gen.Kernel.Skeleton
import proofs.«410538_j6433861009619_3_alg».proof.Proof.Gen.Kernel.Launch
import proofs.«410538_j6433861009619_3_alg».proof.Proof.Gen.Kernel.Points
import proofs.«410538_j6433861009619_3_alg».proof.Proof.Gen.Kernel.Frame
import proofs.«410538_j6433861009619_3_alg».proof.Proof.Gen.KernelIdeal
import proofs.«410538_j6433861009619_3_alg».proof.Proof.Gen.KernelIdeal.Skeleton
import proofs.«410538_j6433861009619_3_alg».proof.Proof.Gen.KernelIdeal.Launch
import proofs.«410538_j6433861009619_3_alg».proof.Proof.Gen.KernelIdeal.Points
import proofs.«410538_j6433861009619_3_alg».proof.Proof.Gen.KernelIdeal.Frame
import proofs.«410538_j6433861009619_3_alg».proof.Proof.Gen.ReferenceIdeal
import proofs.«410538_j6433861009619_3_alg».proof.Proof.Gen.ReferenceIdeal.Run
import proofs.«410538_j6433861009619_3_alg».proof.Proof.Gen.Pre_finite_inputs
import proofs.«410538_j6433861009619_3_alg».proof.Proof.KerValue
import proofs.«410538_j6433861009619_3_alg».proof.Proof.RefValue
import proofs.«410538_j6433861009619_3_alg».proof.Proof.ScaleMath
import proofs.«410538_j6433861009619_3_alg».proof.Proof.Finite
import Idealize.ShloMosaic.Adequacy
import Idealize.ShloMosaic.Init

noncomputable section

namespace Cert.Proof

open Idealize.ShloMosaic Idealize.ShloMosaic.StableHlo Idealize.SL.Sem PowerIter ValueIdx

/-! ## The two arrays of penalties are one array -/

section Penalties

open Cert.ReferenceIdeal Cert.ReferenceIdeal.Gen Cert.KernelIdeal.KerValue

/-- For real arguments, the 64 penalties the reference sums are the 64 penalties the kernel's region
    leaves: entry by entry `penaltyR` and `penaltyK` of the same rows. -/
theorem penalties_eq (A : FVec Ideal S64x512x28x28 .f32) (x : FVec Ideal S64x512x1 .f32)
    (hA : ∀ i, ∃ r : ℝ, A i = (r : EReal)) (hx : ∀ i, ∃ r : ℝ, x i = (r : EReal))
    (V0 : Valuation τ sig (Elt Ideal))
    (h0 : V0 (Proc.devRef .tc main_arg0) = A) (h1 : V0 (Proc.devRef .tc main_arg1) = x) :
    (mulf (broadcastInDim S64 ![] bcast_S_S64 (constant (F := Ideal) S_ .f32 0x3F800000#32))
        (mulf (Value.res_main_v82 (F := Ideal) V0) (Value.res_main_v82 (F := Ideal) V0)) : FVec Ideal S64 .f32)
      = flat (pen A x) := by
  funext i
  obtain ⟨B, rfl⟩ : ∃ B : Fin 64, i = ix1 B := ⟨i 0, eq_ix1 i⟩
  rw [Cert.ReferenceIdeal.RefValue.penalty_read V0 B, flat_apply]
  have ha : (fun j d => Value.res_main_v0 (F := Ideal) V0 (ix3 B j d)) = arows A B := by
    funext j d
    unfold Value.res_main_v0 arows
    rw [h0]
    rfl
  have hu : (fun j => (V0 (Proc.devRef .tc main_arg1) : FVec Ideal S64x512x1 .f32) (ix3 B j 0)) = urow x B := by
    rw [h1]
    rfl
  rw [ha, hu]
  symm
  exact penalty_eq _ _ _ (arows A B) (urow x B) Cert.Finite.clampK_pos Cert.Finite.clampR_pos
    (fun j d => by unfold arows shapeCast; exact hA _) (fun j => hx _)

end Penalties

/-! ## The claims -/

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the two arguments both programs end with the mean of the same 64 penalties. -/
theorem algebraic : Cert.algebraic_KernelIdeal_ReferenceIdeal := by
  intro m ρ m' ρ' hpre hagree
  refine ⟨fun c => Cert.KernelIdeal.KerValue.mean (Cert.KernelIdeal.KerValue.pen
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))),
    Cert.KernelIdeal.KerValue.run m ρ, ?_⟩
  refine (θ_run Cert.ReferenceIdeal.defs _ _).mono (fun _ h c => ⟨(h c).1.trans ?_, (h c).2⟩)
    (Cert.ReferenceIdeal.Value.run (F := Ideal) m' ρ')
  obtain ⟨hA, hx⟩ := Cert.Finite.real_of_pre _ _ (hpre c)
  rw [penalties_eq _ _ hA hx (launchContents m' c) (hagree c).1 (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
